-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S5000x1 : Shape := ⟨2, ![5000, 1]⟩
abbrev S1x128 : Shape := ⟨2, ![1, 128]⟩
abbrev S128x1 : Shape := ⟨2, ![128, 1]⟩
abbrev S1x10 : Shape := ⟨2, ![1, 10]⟩

abbrev nBuf : Space → Nat
  | .hbm => 128
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x1, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S1600000x1, .f32⟩
  | .hbm, ⟨93, _⟩ => ⟨S1600000x128, .f32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S100000x128, .f32⟩
  | .hbm, ⟨100, _⟩ => ⟨S100000x1, .i32⟩
  | .hbm, ⟨101, _⟩ => ⟨S128x128, .f32⟩
  | .hbm, ⟨102, _⟩ => ⟨S1x128, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S128x1, .f32⟩
  | .hbm, ⟨108, _⟩ => ⟨S128x128, .f32⟩
  | .hbm, ⟨109, _⟩ => ⟨S128x128, .f32⟩
  | .hbm, ⟨110, _⟩ => ⟨S128x10, .f32⟩
  | .hbm, ⟨111, _⟩ => ⟨S1x10, .f32⟩
  | .hbm, ⟨112, _⟩ => ⟨S128x10, .f32⟩
  | .hbm, ⟨113, _⟩ => ⟨S128x10, .f32⟩
  | .hbm, ⟨114, _⟩ => ⟨S_, .f32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S128x1, .f32⟩
  | .hbm, ⟨120, _⟩ => ⟨S128x10, .f32⟩
  | .hbm, ⟨121, _⟩ => ⟨S128x10, .f32⟩
  | .hbm, ⟨122, _⟩ => ⟨S128x10, .f32⟩
  | .hbm, ⟨123, _⟩ => ⟨S_, .f32⟩
  | .hbm, ⟨124, _⟩ => ⟨S128, .f32⟩
  | .hbm, ⟨125, _⟩ => ⟨S128x1, .f32⟩
  | .hbm, ⟨126, _⟩ => ⟨S128x10, .f32⟩
  | .hbm, ⟨127, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x1, .i32⟩
  | .local _ .vmem, ⟨45, _⟩ => ⟨S5000x1, .i32⟩
  | .local _ .vmem, ⟨46, _⟩ => ⟨S128x128, .f32⟩
  | .local _ .vmem, ⟨47, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74_0 : Ref sig .tc := ⟨.hbm, 101, rfl⟩
abbrev main_v74_1 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_17 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S1x128_S1x128_0_0 : ∀ a, (![0, 0] : Fin 2 → Nat) a + S1x128.size a ≤ S1x128.size a
  h_S1x128 : 0 < S1x128.numel
  iota_S5000x128_d1_w32 : S5000x128.Iotas .tc 32 [1]
  natLt_1_32 : 1 < 32
  shapeCasts_S128x128_S128x128 : S128x128.ShapeCasts S128x128
  shapeCasts_S1x128_S1x128 : S1x128.ShapeCasts S1x128
  reduces_S5000x128_S128 : S5000x128.Reduces [0] S128
  shapeCasts_S1x128_S128 : S1x128.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S5000x128_S128x128_0_0_1_1_n_n_wf : DotDims.WF S5000x128 S5000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v72) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74_0) S128x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v74_1) S1x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x1 : Shape := ⟨2, ![128, 1]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S1600000x1, .f32⟩
  | 112 => ⟨S1600000x128, .f32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S1600000, .f32⟩
  | 4 => ⟨S_, .f32⟩
  | 5 => ⟨S100000, .f32⟩
  | 6 => ⟨S1600000x1, .i32⟩
  | 7 => ⟨S100000, .f32⟩
  | 8 => ⟨S_, .f32⟩
  | 9 => ⟨S100000, .f32⟩
  | 10 => ⟨S100000, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S1600000x1, .f32⟩
  | 41 => ⟨S1600000x128, .f32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000, .f32⟩
  | 48 => ⟨S100000x1, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128x128, .f32⟩
  | 57 => ⟨S100000x1, .i32⟩
  | 58 => ⟨S128x128, .f32⟩
  | 59 => ⟨S_, .f32⟩
  | 60 => ⟨S100000, .f32⟩
  | 61 => ⟨S_, .f32⟩
  | 62 => ⟨S128, .f32⟩
  | 63 => ⟨S100000x1, .i32⟩
  | 64 => ⟨S128, .f32⟩
  | 65 => ⟨S_, .f32⟩
  | 66 => ⟨S128, .f32⟩
  | 67 => ⟨S128, .f32⟩
  | 68 => ⟨S128x1, .f32⟩
  | 69 => ⟨S128x128, .f32⟩
  | 70 => ⟨S128x128, .f32⟩
  | 71 => ⟨S128x10, .f32⟩
  | 72 => ⟨S1x10, .f32⟩
  | 73 => ⟨S128x10, .f32⟩
  | 74 => ⟨S128x10, .f32⟩
  | 75 => ⟨S_, .f32⟩
  | 76 => ⟨S128, .f32⟩
  | 77 => ⟨S_, .f32⟩
  | 78 => ⟨S128, .f32⟩
  | 79 => ⟨S128, .f32⟩
  | 80 => ⟨S128x1, .f32⟩
  | 81 => ⟨S128x10, .f32⟩
  | 82 => ⟨S128x10, .f32⟩
  | 83 => ⟨S128x10, .f32⟩
  | 84 => ⟨S_, .f32⟩
  | 85 => ⟨S128, .f32⟩
  | 86 => ⟨S128x1, .f32⟩
  | 87 => ⟨S128x10, .f32⟩
  | 88 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_32 : Ref sig .tc := ⟨.hbm, 203, rfl⟩
abbrev main_v154 : Ref sig .tc := ⟨.hbm, 204, rfl⟩
abbrev main_cst_33 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_34 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x10_S128x10_1_0_0_1_n_n_wf : DotDims.WF S128x128 S128x10 S128x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Gcn.lean ====
/-
  The graph-convolution network both programs compute, written once as functions of whole arrays.

  A graph on 100000 nodes is given by 1600000 directed edges (row 0 of the edge list holds each edge's
  source, row 1 its target). With deg n = 1 + #{edges into n} and dinv = deg^(-1/2), one convolution layer
  sends node features x to

      conv x W b = A (x W) + dinv² ⊙ (x W) + b,      (A h) n = ∑_{edges s → n} dinv s · dinv n · h s,

  three layers are applied (a rectifier after the first two), the node rows are summed per graph
  (the graph of node n is `bt n`; a node whose graph number is outside 0..127 belongs to no graph),
  divided by max(count, 1), sent through a linear map and a row-wise softmax.

  Every function below is the composition of array operations that the two programs share; only three
  of them are computed differently by the two programs: `lin` (a product of matrices), `combineCol`
  followed by `relu` (a pointwise expression), and `poolSumCol` / `poolCountCol` (sums over the nodes of
  each graph). The shapes and dimension records are the reference program's.
-/
import proofs.«412704_j34110630265034_1_alg».proof.Proof.Gen.ReferenceIdeal

noncomputable section

namespace Cert.Gcn

open Idealize.ShloMosaic Cert.ReferenceIdeal Cert.ReferenceIdeal.Gen

variable {F : FTy → Type} [FloatOps F]

/-! ## The graph: edge endpoints, degrees, edge weights -/

/-- The source node of every edge: row 0 of the edge list. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The target node of every edge: row 1 of the edge list. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A list of edge endpoints as a one-column index array. -/
def edgeCol (v : (⟨S1600000, .i32⟩ : BufTy).Contents (Elt F)) : (⟨S1600000x1, .i32⟩ : BufTy).Contents (Elt F) :=
  broadcastInDim S1600000x1 ![0] bcast_S1600000_S1600000x1_0 v

/-- deg n = 1 + the number of edges whose target is n (an out-of-range target counts nowhere). -/
def deg (e : (⟨S2x1600000, .i32⟩ : BufTy).Contents (Elt F)) : (⟨S100000, .f32⟩ : BufTy).Contents (Elt F) :=
  addf (Host.scatterAdd scatter_S100000_S1600000x1_S1600000_n_0_0_1
      (broadcastInDim S100000 ![] bcast_S_S100000 (constant S_ .f32 0x00000000#32))
      (edgeCol (dst e))
      (broadcastInDim S1600000 ![] bcast_S_S1600000 (constant S_ .f32 0x3F800000#32)))
    (broadcastInDim S100000 ![] bcast_S_S100000 (constant S_ .f32 0x3F800000#32))

/-- dinv n = deg n ^ (-1/2). -/
def dinv (e : (⟨S2x1600000, .i32⟩ : BufTy).Contents (Elt F)) : (⟨S100000, .f32⟩ : BufTy).Contents (Elt F) :=
  Host.rsqrt (deg e)

/-- A negative endpoint counts from the end: v ↦ v + 100000 where v < 0. -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- A per-node quantity read at every edge's endpoint. -/
def atEdge (d : (⟨S100000, .f32⟩ : BufTy).Contents (Elt F)) (v : (⟨S1600000, .i32⟩ : BufTy).Contents (Elt F)) :
    (⟨S1600000, .f32⟩ : BufTy).Contents (Elt F) :=
  Host.gather gather_S100000_S1600000x1_S1600000_n_0_n_n_0_1_1 d (edgeCol (wrap v))

/-- The weight of every edge: dinv at its source times dinv at its target. -/
def norm (e : (⟨S2x1600000, .i32⟩ : BufTy).Contents (Elt F)) : (⟨S1600000, .f32⟩ : BufTy).Contents (Elt F) :=
  mulf (atEdge (dinv e) (src e)) (atEdge (dinv e) (dst e))

/-! ## One convolution layer -/

/-- The feature rows of every edge's endpoint. -/
def rowsAtEdge (h : (⟨S100000x128, .f32⟩ : BufTy).Contents (Elt F)) (v : (⟨S1600000, .i32⟩ : BufTy).Contents (Elt F)) :
    (⟨S1600000x128, .f32⟩ : BufTy).Contents (Elt F) :=
  Host.gather gather_S100000x128_S1600000x1_S1600000x128_1_0_n_n_0_1_1128 h (edgeCol (wrap v))

/-- A per-edge weight repeated along the 128 features. -/
def perEdge (w : (⟨S1600000, .f32⟩ : BufTy).Contents (Elt F)) : (⟨S1600000x128, .f32⟩ : BufTy).Contents (Elt F) :=
  broadcastInDim S1600000x128 ![0, 1] bcast_S1600000x1_S1600000x128_0_1
    (broadcastInDim S1600000x1 ![0] bcast_S1600000_S1600000x1_0 w)

/-- The neighbour sum: (agg w s d h) n = ∑ over the edges k with d k = n of w k · h (s k). -/
def agg (w : (⟨S1600000, .f32⟩ : BufTy).Contents (Elt F)) (s d : (⟨S1600000, .i32⟩ : BufTy).Contents (Elt F))
    (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (edgeCol d) (mulf (rowsAtEdge h s) (perEdge w))

/-- The dense part of a layer: x W. -/
def lin (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- A per-node quantity as a one-column array. -/
def nodeCol {t : EltTy} (v : (⟨S100000, t⟩ : BufTy).Contents (Elt F)) : (⟨S100000x1, t⟩ : BufTy).Contents (Elt F) :=
  broadcastInDim S100000x1 ![0] bcast_S100000_S100000x1_0 v

/-- A bias row repeated over the nodes. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- a + q ⊙ h + b, the self-loop weight q given as a one-column array. -/
def combineCol (q : (⟨S100000x1, .f32⟩ : BufTy).Contents (Elt F)) (a h : (⟨S100000x128, .f32⟩ : BufTy).Contents (Elt F))
    (b : (⟨S128, .f32⟩ : BufTy).Contents (Elt F)) : (⟨S100000x128, .f32⟩ : BufTy).Contents (Elt F) :=
  addf (addf a (mulf (broadcastInDim S100000x128 ![0, 1] bcast_S100000x1_S100000x128_0_1 q) h)) (biasRows b)

/-- The rectifier: max(x, 0). -/
def relu (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The self-loop weight dinv², as a one-column array. -/
def selfCol (e : (⟨S2x1600000, .i32⟩ : BufTy).Contents (Elt F)) : (⟨S100000x1, .f32⟩ : BufTy).Contents (Elt F) :=
  nodeCol (mulf (dinv e) (dinv e))

/-- One layer: A (x W) + dinv² ⊙ (x W) + b. -/
def conv (e : (⟨S2x1600000, .i32⟩ : BufTy).Contents (Elt F)) (x : (⟨S100000x128, .f32⟩ : BufTy).Contents (Elt F))
    (W : (⟨S128x128, .f32⟩ : BufTy).Contents (Elt F)) (b : (⟨S128, .f32⟩ : BufTy).Contents (Elt F)) :
    (⟨S100000x128, .f32⟩ : BufTy).Contents (Elt F) :=
  combineCol (selfCol e) (agg (norm e) (src e) (dst e) (lin x W)) (lin x W) b

/-! ## Pooling over graphs and the classifier -/

/-- Row g: the sum of the rows x n over the nodes n whose graph number (given as a one-column array) is g. -/
def poolSumCol (bc : (⟨S100000x1, .i32⟩ : BufTy).Contents (Elt F)) (x : (⟨S100000x128, .f32⟩ : BufTy).Contents (Elt F)) :
    (⟨S128x128, .f32⟩ : BufTy).Contents (Elt F) :=
  Host.scatterAdd scatter_S128x128_S100000x1_S100000x128_1_0_0_1
    (broadcastInDim S128x128 ![] bcast_S_S128x128 (constant S_ .f32 0x00000000#32)) bc x

/-- Entry g: the number of nodes whose graph number is g. -/
def poolCountCol (bc : (⟨S100000x1, .i32⟩ : BufTy).Contents (Elt F)) : (⟨S128, .f32⟩ : BufTy).Contents (Elt F) :=
  Host.scatterAdd scatter_S128_S100000x1_S100000_n_0_0_1
    (broadcastInDim S128 ![] bcast_S_S128 (constant S_ .f32 0x00000000#32)) bc
    (broadcastInDim S100000 ![] bcast_S_S100000 (constant S_ .f32 0x3F800000#32))

/-- The per-graph mean (the count replaced by 1 where it is smaller), the linear map and its bias. -/
def logits (sums : (⟨S128x128, .f32⟩ : BufTy).Contents (Elt F)) (cnt : (⟨S128, .f32⟩ : BufTy).Contents (Elt F))
    (lw : (⟨S128x10, .f32⟩ : BufTy).Contents (Elt F)) (lb : (⟨S10, .f32⟩ : BufTy).Contents (Elt F)) :
    (⟨S128x10, .f32⟩ : BufTy).Contents (Elt F) :=
  addf (Host.dotGeneral dot_S128x128_S128x10_S128x10_1_0_0_1_n_n none
      (Host.divf sums (broadcastInDim S128x128 ![0, 1] bcast_S128x1_S128x128_0_1 (broadcastInDim S128x1 ![0] bcast_S128_S128x1_0
        (maximumf cnt (broadcastInDim S128 ![] bcast_S_S128 (constant S_ .f32 0x3F800000#32)))))) lw)
    (broadcastInDim S128x10 ![0, 1] bcast_S1x10_S128x10_0_1 (broadcastInDim S1x10 ![1] bcast_S10_S1x10_1 lb))

/-- exp (z − max of z's row). -/
def expShifted (z : (⟨S128x10, .f32⟩ : BufTy).Contents (Elt F)) : (⟨S128x10, .f32⟩ : BufTy).Contents (Elt F) :=
  Host.exp (subf z (broadcastInDim S128x10 ![0, 1] bcast_S128x1_S128x10_0_1 (broadcastInDim S128x1 ![0] bcast_S128_S128x1_0
    (maximumf (broadcastInDim S128 ![] bcast_S_S128 (constant S_ .f32 0xFF800000#32))
      (Host.reduce FloatOps.maximumf z (constant S_ .f32 0xFF800000#32) reducesTo_S128x10_S128_d1 h_S_)))))

/-- The row-wise softmax. -/
def softmax (z : (⟨S128x10, .f32⟩ : BufTy).Contents (Elt F)) : (⟨S128x10, .f32⟩ : BufTy).Contents (Elt F) :=
  Host.divf (expShifted z) (broadcastInDim S128x10 ![0, 1] bcast_S128x1_S128x10_0_1 (broadcastInDim S128x1 ![0] bcast_S128_S128x1_0
    (Host.reduceAdd (expShifted z) (constant S_ .f32 0x00000000#32) reducesTo_S128x10_S128_d1 h_S_)))

/-- The three layers. -/
def features (e : (⟨S2x1600000, .i32⟩ : BufTy).Contents (Elt F)) (x : (⟨S100000x128, .f32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) :
    (⟨S100000x128, .f32⟩ : BufTy).Contents (Elt F) :=
  conv e (relu (conv e (relu (conv e x W0 b0)) W1 b1)) W2 b2

/-- The whole network. -/
def model (x : (⟨S100000x128, .f32⟩ : BufTy).Contents (Elt F)) (e : (⟨S2x1600000, .i32⟩ : BufTy).Contents (Elt F))
    (bt : (⟨S100000, .i32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (lw : (⟨S128x10, .f32⟩ : BufTy).Contents (Elt F)) (lb : (⟨S10, .f32⟩ : BufTy).Contents (Elt F)) :
    (⟨S128x10, .f32⟩ : BufTy).Contents (Elt F) :=
  softmax (logits (poolSumCol (nodeCol bt) (features e x W0 b0 W1 b1 W2 b2)) (poolCountCol (nodeCol bt)) lw lb)

end Cert.Gcn

end
-- ==== Proof.RefModel.lean ====
/-
  The reference program's result is the network `Cert.Gcn.model` of its arguments: its operations, read one at a
  time, are the operations the shared functions are made of, in the same order.
-/
import proofs.«412704_j34110630265034_1_alg».proof.Proof.Gen.ReferenceIdeal.Read
import proofs.«412704_j34110630265034_1_alg».proof.Proof.Gcn

noncomputable section

namespace Cert.ReferenceIdeal.Model

open Idealize.ShloMosaic Cert.ReferenceIdeal Cert.ReferenceIdeal.Gen Cert.ReferenceIdeal.Read

variable {F : FTy → Type} [FloatOps F]

theorem result_eq (x0 : (⟨S100000x128, .f32⟩ : BufTy).Contents (Elt F)) (x1 : (⟨S2x1600000, .i32⟩ : BufTy).Contents (Elt F))
    (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F))
    (x8 : (⟨S128, .f32⟩ : BufTy).Contents (Elt F)) (x9 : (⟨S128x10, .f32⟩ : BufTy).Contents (Elt F))
    (x10 : (⟨S10, .f32⟩ : BufTy).Contents (Elt F)) :
    val_main_v164 (F := F) x0 x1 x2 x3 x4 x5 x6 x7 x8 x9 x10 = Cert.Gcn.model x0 x1 x2 x3 x4 x5 x6 x7 x8 x9 x10 := by
  rfl

end Cert.ReferenceIdeal.Model

end
-- ==== Proof.PoolSpec.lean ====
/-
  Pooling over graphs, index by index: for a graph number g and a feature d, the sum of x n d over the nodes n
  whose graph number is g, and the number of such nodes. The graph number of node n is the 32-bit word bc (n, 0);
  a node whose word is none of 0 … 127 is counted for no graph.
-/
import proofs.«412704_j34110630265034_1_alg».proof.Proof.Gcn
import Idealize.ShloMosaic.PureOps.Ideal
import Idealize.ShloMosaic.Lib.ValueIdx

noncomputable section

namespace Cert.Gcn

open Idealize.ShloMosaic Idealize.ShloMosaic.ValueIdx Cert.ReferenceIdeal Cert.ReferenceIdeal.Gen

/-- ∑ over the nodes n with graph number g of x n d. -/
def poolSumAt (bc : (⟨S100000x1, .i32⟩ : BufTy).Contents (Elt Ideal)) (x : (⟨S100000x128, .f32⟩ : BufTy).Contents (Elt Ideal))
    (g d : Fin 128) : EReal :=
  ∑ n : Fin 100000, if bc (ix2 n (0 : Fin 1)) = BitVec.ofNat 32 g.val then x (ix2 n d) else 0

/-- The number of nodes with graph number g. -/
def poolCountAt (bc : (⟨S100000x1, .i32⟩ : BufTy).Contents (Elt Ideal)) (g : Fin 128) : EReal :=
  ∑ n : Fin 100000, if bc (ix2 n (0 : Fin 1)) = BitVec.ofNat 32 g.val then (1 : EReal) else 0

end Cert.Gcn

end
-- ==== Proof.PoolLaw.lean ====
/-
  The accumulating scatter of the node rows by graph number, read at one entry: row g, feature d of the result is the
  sum of x n d over the nodes whose graph number is g (an update whose graph number is outside 0 … 127 lands nowhere),
  and likewise the scatter of ones counts those nodes.

  The road: an update lands on an operand index exactly when, axis by axis, its window start plus its window coordinate
  is that index's coordinate. For both scatters the start on axis 0 is the node's graph word read as a signed integer,
  and a signed reading equal to g < 128 means the word is the word of g; on axis 1 (the sum only) the start is 0 and
  the window coordinate is the feature. The operand is the zero array, so an entry is the sum of the updates landing
  on it, and that filtered sum over update indices is re-indexed as a sum over the nodes of an if-then-else.
-/
import proofs.«412704_j34110630265034_1_alg».proof.Proof.PoolSpec
import Idealize.ShloMosaic.PureOps.Ideal.Laws
import Idealize.ShloMosaic.Lib.IdealHost
import Idealize.ShloMosaic.Lib.ValueIdxRank1

noncomputable section

namespace Cert.Gcn

open Idealize.ShloMosaic Idealize.ShloMosaic.ValueIdx Cert.ReferenceIdeal Cert.ReferenceIdeal.Gen

/-! ## Where an update lands, in general -/

/-- An update lands on the operand index i exactly when, on every axis, window start plus window coordinate is
    i's coordinate. -/
private theorem resultIdx?_eq_some_iff {s si u : Shape} (r : ScatterDims s si u) {w : Nat} (j : u.Idx) (idx : IVec si w)
    (i : s.Idx) : r.resultIdx? j idx = some i ↔ ∀ a, r.start j idx a + (r.window j a : ℤ) = ((i a).val : ℤ) := by
  unfold ScatterDims.resultIdx?
  by_cases h : ∀ a, 0 ≤ r.start j idx a + r.window j a ∧ r.start j idx a + r.window j a < s.size a
  · rw [dif_pos h, Option.some.injEq]
    constructor
    · intro e a
      have h1 := congrArg (fun f => ((f a).val : ℤ)) e
      simp only at h1
      rw [← h1, Int.toNat_of_nonneg (h a).1]
    · intro H
      funext a
      apply Fin.ext
      have := H a
      simp only
      omega
  · rw [dif_neg h]
    constructor
    · intro e; cases e
    · intro H
      exfalso
      apply h
      intro a
      have h1 := H a
      have h2 := (i a).isLt
      constructor <;> omega

/-- A 32-bit word read as a signed integer is g (below 128) exactly when it is the word of g. -/
private theorem word_toInt_eq_iff (w : BitVec 32) (g : Fin 128) : w.toInt = (g.val : ℤ) ↔ w = BitVec.ofNat 32 g.val := by
  have hg := g.isLt
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    split <;> omega

/-! ## The scatter of the rows: update (n, d') lands on (g, d) iff node n has graph word g and d' = d -/

/-- On axis 0 the window of update (n, d') starts at node n's graph word, read signed. -/
private theorem sumRec_start0 (idx : IVec S100000x1 32) (n : Fin 100000) (d' : Fin 128) :
    scatter_S128x128_S100000x1_S100000x128_1_0_0_1.start (ix2 n d') idx (0 : Fin 2) = (idx (ix2 n (0 : Fin 1))).toInt := by
  unfold ScatterDims.start
  rw [dif_pos (by decide)]
  congr 2
  funext b
  match b with
  | ⟨0, _⟩ => rfl
  | ⟨1, _⟩ => rfl

/-- Axis 1 is named by no start-index component: the window starts at 0 there. -/
private theorem sumRec_start1 (idx : IVec S100000x1 32) (n : Fin 100000) (d' : Fin 128) :
    scatter_S128x128_S100000x1_S100000x128_1_0_0_1.start (ix2 n d') idx (1 : Fin 2) = 0 := by
  unfold ScatterDims.start
  rw [dif_neg (by decide)]

/-- Axis 0 is an inserted axis: the window coordinate is 0 there. -/
private theorem sumRec_window0 (n : Fin 100000) (d' : Fin 128) :
    scatter_S128x128_S100000x1_S100000x128_1_0_0_1.window (ix2 n d') (0 : Fin 2) = 0 := by
  unfold ScatterDims.window
  rw [dif_neg (by decide)]

/-- On axis 1 the window coordinate of update (n, d') is d'. -/
private theorem sumRec_window1 (n : Fin 100000) (d' : Fin 128) :
    scatter_S128x128_S100000x1_S100000x128_1_0_0_1.window (ix2 n d') (1 : Fin 2) = d'.val := by
  unfold ScatterDims.window
  rw [dif_pos (by decide)]
  rfl

private theorem sumRec_resultIdx (idx : IVec S100000x1 32) (n : Fin 100000) (d' g d : Fin 128) :
    scatter_S128x128_S100000x1_S100000x128_1_0_0_1.resultIdx? (ix2 n d') idx = some (ix2 g d) ↔
      idx (ix2 n (0 : Fin 1)) = BitVec.ofNat 32 g.val ∧ d' = d := by
  rw [resultIdx?_eq_some_iff, Fin.forall_fin_two, sumRec_start0, sumRec_start1, sumRec_window0, sumRec_window1,
    ← word_toInt_eq_iff, Fin.ext_iff]
  show (idx (ix2 n 0)).toInt + ((0 : ℕ) : ℤ) = ((g.val : ℕ) : ℤ) ∧ 0 + ((d'.val : ℕ) : ℤ) = ((d.val : ℕ) : ℤ) ↔ _
  omega

theorem poolSumCol_apply (bc : (⟨S100000x1, .i32⟩ : BufTy).Contents (Elt Ideal)) (x : (⟨S100000x128, .f32⟩ : BufTy).Contents (Elt Ideal))
    (g d : Fin 128) : poolSumCol (F := Ideal) bc x (ix2 g d) = poolSumAt bc x g d := by
  unfold poolSumCol poolSumAt Host.scatterAdd
  rw [Ideal.hostScatterAdd_def]
  unfold Ideal.hostScatterAdd
  rw [broadcastInDim_scalar_apply, constant_apply, Ideal.ofBits_zero_f32, zero_add, Finset.sum_filter, sum_idx2]
  refine Finset.sum_congr rfl fun n _ => ?_
  simp only [sumRec_resultIdx]
  by_cases hb : bc (ix2 n (0 : Fin 1)) = BitVec.ofNat 32 g.val
  · simp only [hb, true_and, if_true]
    rw [Finset.sum_ite_eq', if_pos (Finset.mem_univ _)]
  · simp only [hb, false_and, if_false, Finset.sum_const_zero]

/-! ## The scatter of ones: update n lands on g iff node n has graph word g -/

/-- The window of update n starts at node n's graph word, read signed. -/
private theorem countRec_start0 (idx : IVec S100000x1 32) (n : Fin 100000) :
    scatter_S128_S100000x1_S100000_n_0_0_1.start (ix1 n) idx (0 : Fin 1) = (idx (ix2 n (0 : Fin 1))).toInt := by
  unfold ScatterDims.start
  rw [dif_pos (by decide)]
  congr 2
  funext b
  match b with
  | ⟨0, _⟩ => rfl
  | ⟨1, _⟩ => rfl

/-- The one operand axis is an inserted axis: the window coordinate is 0. -/
private theorem countRec_window0 (n : Fin 100000) :
    scatter_S128_S100000x1_S100000_n_0_0_1.window (ix1 n) (0 : Fin 1) = 0 := by
  unfold ScatterDims.window
  rw [dif_neg (by decide)]

private theorem countRec_resultIdx (idx : IVec S100000x1 32) (n : Fin 100000) (g : Fin 128) :
    scatter_S128_S100000x1_S100000_n_0_0_1.resultIdx? (ix1 n) idx = some (ix1 g) ↔
      idx (ix2 n (0 : Fin 1)) = BitVec.ofNat 32 g.val := by
  rw [resultIdx?_eq_some_iff, Fin.forall_fin_one, countRec_start0, countRec_window0, ← word_toInt_eq_iff]
  show (idx (ix2 n 0)).toInt + ((0 : ℕ) : ℤ) = ((g.val : ℕ) : ℤ) ↔ _
  omega

theorem poolCountCol_apply (bc : (⟨S100000x1, .i32⟩ : BufTy).Contents (Elt Ideal)) (g : Fin 128) :
    poolCountCol (F := Ideal) bc (ix1 g) = poolCountAt bc g := by
  unfold poolCountCol poolCountAt Host.scatterAdd
  rw [Ideal.hostScatterAdd_def]
  unfold Ideal.hostScatterAdd
  rw [broadcastInDim_scalar_apply, constant_apply, Ideal.ofBits_zero_f32, zero_add, Finset.sum_filter,
    ← Equiv.sum_comp (idxEquiv1 (n := 100000)).symm]
  refine Finset.sum_congr rfl fun n _ => ?_
  show (if scatter_S128_S100000x1_S100000_n_0_0_1.resultIdx? (ix1 n) bc = some (ix1 g) then _ else 0) = _
  rw [broadcastInDim_scalar_apply, constant_apply, Ideal.ofBits_one_f32]
  simp only [countRec_resultIdx]

end Cert.Gcn

end
-- ==== Proof.Dense0.lean ====
/-
  Region 0 of the kernel program (a product of matrices tiled over 20 blocks of 5000 rows): the array it leaves is
  the whole product x W of the two arrays it reads, whatever the buffers hold when the region is entered.
-/
import proofs.«412704_j34110630265034_1_alg».proof.Proof.Gen.KernelIdeal.Frame
import proofs.«412704_j34110630265034_1_alg».proof.Proof.Gen.ReferenceIdeal.Read
import proofs.«412704_j34110630265034_1_alg».proof.Proof.Gcn
import Idealize.ShloMosaic.PureOps.Ideal.Laws
import Idealize.ShloMosaic.Lib.ValueIdx
import Idealize.ShloMosaic.Lib.Pipeline.Value

set_option maxRecDepth 16384

noncomputable section

namespace Cert.KernelIdeal.Dense0

open Cert.KernelIdeal Cert.KernelIdeal.Gen
open Idealize.ShloMosaic Idealize.ShloMosaic.TcCoe Idealize.SL.Sem
open Idealize.ShloMosaic.Pipeline (Dat Cfg Window)

/-! ## One block's product, entry by entry -/

/-- Row coordinate of the left factor's entry met by an output entry: the output's row. -/
private theorem lhsBlock_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate: the summation index. -/
private theorem lhsBlock_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Row coordinate of the right factor's entry: the summation index. -/
private theorem rhsBlock_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Its column coordinate: the output's column. -/
private theorem rhsBlock_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of j, k) of a block of 5000 rows. -/
private abbrev blockRowAt (j : S5000x128.Idx) (k : Fin 128) : S5000x128.Idx := fun a => match a with
  | ⟨0, _⟩ => ⟨(j 0).val, (j 0).isLt⟩
  | ⟨1, _⟩ => ⟨k.val, k.isLt⟩
/-- Entry (k, column of j) of the square factor. -/
private abbrev weightColAt (j : S5000x128.Idx) (k : Fin 128) : S128x128.Idx := fun a => match a with
  | ⟨0, _⟩ => ⟨k.val, k.isLt⟩
  | ⟨1, _⟩ => ⟨(j 1).val, (j 1).isLt⟩

/-- What the body stores, at an entry: at the ideal values the narrowing of both factors changes nothing and the
    product into a zero accumulator is the plain sum of products over the 128 shared indices. -/
private theorem body_apply (xb : Vec Ideal S5000x128 .f32) (wb : Vec Ideal S128x128 .f32) (j : S5000x128.Idx) :
    k0_pay1 (F := Ideal) xb wb j = ∑ k : Fin 128, xb (blockRowAt j k) * wb (weightColAt j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockRowAt j k := funext fun a => Fin.ext (by
    match a with
    | ⟨0, _⟩ => exact lhsBlock_row _ _
    | ⟨1, _⟩ => exact (lhsBlock_col _ _).trans hk)
  have er : dot_S5000x128_S128x128_S5000x128_1_0_0_1_n_n.rhsIdx j ((ValueIdx.contrEquiv1 dot_S5000x128_S128x128_S5000x128_1_0_0_1_n_n 128 rfl rfl).symm k) = weightColAt j k := funext fun a => Fin.ext (by
    match a with
    | ⟨0, _⟩ => exact (rhsBlock_row _ _).trans hk
    | ⟨1, _⟩ => exact rhsBlock_col _ _)
  -- narrowing a factor, and re-reading a block at its own shape, change no entry at the ideal values
  simp only [ValueIdx.truncf_apply, shapeCast_self, el, er]

variable (V : (c : Dev nD) → (b : Ref sig .tc) → Buf (Elt Ideal) ((c : Thread nD τ).loc b))

/-! ## From the 20 blocks to the whole array -/

private theorem zeroOffsets : (![0, 0] : Fin 2 → Nat) = fun _ => 0 := funext fun a => by fin_cases a <;> rfl

/-- A block's product at an entry is the whole product at the array's entry, once the block of the left factor holds
    the row of the array that entry lies in and the block of the right factor holds the right factor. -/
private theorem body_eq_lin (x : (⟨Cert.ReferenceIdeal.S100000x128, .f32⟩ : BufTy).Contents (Elt Ideal))
    (w : (⟨Cert.ReferenceIdeal.S128x128, .f32⟩ : BufTy).Contents (Elt Ideal))
    (xb : Vec Ideal S5000x128 .f32) (wb : Vec Ideal S128x128 .f32) (j : S5000x128.Idx) (i : Cert.ReferenceIdeal.S100000x128.Idx)
    (hx : ∀ k : Fin 128, xb (blockRowAt j k) = x (Cert.ReferenceIdeal.Read.lidx_main_v4 i k))
    (hw : ∀ k : Fin 128, wb (weightColAt j k) = w (Cert.ReferenceIdeal.Read.ridx_main_v4 i k)) :
    k0_pay1 (F := Ideal) xb wb j = Cert.Gcn.lin (F := Ideal) x w i := by
  rw [body_apply]
  show _ = Cert.ReferenceIdeal.Read.val_main_v4 (F := Ideal) x w i
  rw [Cert.ReferenceIdeal.Read.val_main_v4_apply]
  exact Finset.sum_congr rfl fun k _ => by rw [hx k, hw k]

/-- The printed index maps over the grid: at point t the left factor's window and the output's window are at block
    (t, 0), the right factor's at block (0, 0). -/
private theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t, at an entry, is the array at the entry the window's offsets send it to. -/
private theorem xBlock_apply (c : Dev nD) (t : Fin cfg0.N) (y : S5000x128.Idx) (i : S100000x128.Idx)
    (h0 : (i 0).val = win0_0.index t (0 : Fin 2) * 5000 + (y 0).val)
    (h1 : (i 1).val = win0_0.index t (1 : Fin 2) * 128 + (y 1).val) :
    (iblk0 (F := Ideal) V c 0 t : Vec Ideal S5000x128 .f32) y = (V c main_arg0 : S100000x128.Idx → Elt Ideal .f32) i := by
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The right factor's block at point t likewise. -/
private theorem wBlock_apply (c : Dev nD) (t : Fin cfg0.N) (y : S128x128.Idx) (i : S128x128.Idx)
    (h0 : (i 0).val = win0_1.index t (0 : Fin 2) * 128 + (y 0).val)
    (h1 : (i 1).val = win0_1.index t (1 : Fin 2) * 128 + (y 1).val) :
    (iblk0 (F := Ideal) V c 1 t : Vec Ideal S128x128 .f32) y = (V c main_arg3 : S128x128.Idx → Elt Ideal .f32) i := by
  unfold iblk0
  rw [View.read_apply]
  show V c main_arg3 _ = V c main_arg3 _
  congr 1
  funext a
  apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point t writes back is block t of the whole product of the two arrays the region reads. -/
private theorem flushed_eq (c : Dev nD) (t : Fin cfg0.N) :
    (dat0 (F := Ideal) V c).flushed 2 t
      = ((cfg0.win 2).blk t).view.read (Elt Ideal) (Cert.Gcn.lin (F := Ideal) (V c main_arg0) (V c main_arg3)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := blockIndices t
  funext j
  refine body_eq_lin (V c main_arg0) (V c main_arg3) (iblk0 (F := Ideal) V c 0 t) (iblk0 (F := Ideal) V c 1 t) j (((cfg0.win 2).blk t).view.emb j) (fun k => ?_) (fun k => ?_)
  · refine xBlock_apply V c t _ _ ?_ ?_
    · show win0_2.index t (0 : Fin 2) * 5000 + 1 * (j 0).val = win0_0.index t (0 : Fin 2) * 5000 + (j 0).val
      omega
    · show k.val = win0_0.index t (1 : Fin 2) * 128 + k.val
      omega
  · refine wBlock_apply V c t _ _ ?_ ?_
    · show k.val = win0_1.index t (0 : Fin 2) * 128 + k.val
      omega
    · show win0_2.index t (1 : Fin 2) * 128 + 1 * (j 1).val = win0_1.index t (1 : Fin 2) * 128 + (j 1).val
      omega

/-- An entry of the array lies in point t's block iff each coordinate lies in the block's range on its axis. -/
private theorem mem_outBlock (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every entry of the array lies in some point's block: row r lies in block r / 5000. -/
private theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5⟩ := blockIndices ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_outBlock]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

theorem final (c : Dev nD) :
    (dat0 (F := Ideal) V c).arrAt 2 cfg0.N = Cert.Gcn.lin (F := Ideal) (V c main_arg0) (V c main_arg3) :=
  (dat0 (F := Ideal) V c).arrAt_eq_of_cover 2 (Cert.Gcn.lin (F := Ideal) (V c main_arg0) (V c main_arg3))
    (fun t _ => flushed_eq V c t) covered

end Cert.KernelIdeal.Dense0

end
-- ==== Proof.Dense2.lean ====
/-
  Region 2 of the kernel program (a product of matrices tiled over 20 blocks of 5000 rows): the array it leaves is
  the whole product x W of the two arrays it reads, whatever the buffers hold when the region is entered.
-/
import proofs.«412704_j34110630265034_1_alg».proof.Proof.Gen.KernelIdeal.Frame
import proofs.«412704_j34110630265034_1_alg».proof.Proof.Gen.ReferenceIdeal.Read
import proofs.«412704_j34110630265034_1_alg».proof.Proof.Gcn
import Idealize.ShloMosaic.PureOps.Ideal.Laws
import Idealize.ShloMosaic.Lib.ValueIdx
import Idealize.ShloMosaic.Lib.Pipeline.Value

set_option maxRecDepth 16384

noncomputable section

namespace Cert.KernelIdeal.Dense2

open Cert.KernelIdeal Cert.KernelIdeal.Gen
open Idealize.ShloMosaic Idealize.ShloMosaic.TcCoe Idealize.SL.Sem
open Idealize.ShloMosaic.Pipeline (Dat Cfg Window)

/-! ## One block's product, entry by entry -/

/-- Row coordinate of the left factor's entry met by an output entry: the output's row. -/
private theorem lhsBlock_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate: the summation index. -/
private theorem lhsBlock_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Row coordinate of the right factor's entry: the summation index. -/
private theorem rhsBlock_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Its column coordinate: the output's column. -/
private theorem rhsBlock_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of j, k) of a block of 5000 rows. -/
private abbrev blockRowAt (j : S5000x128.Idx) (k : Fin 128) : S5000x128.Idx := fun a => match a with
  | ⟨0, _⟩ => ⟨(j 0).val, (j 0).isLt⟩
  | ⟨1, _⟩ => ⟨k.val, k.isLt⟩
/-- Entry (k, column of j) of the square factor. -/
private abbrev weightColAt (j : S5000x128.Idx) (k : Fin 128) : S128x128.Idx := fun a => match a with
  | ⟨0, _⟩ => ⟨k.val, k.isLt⟩
  | ⟨1, _⟩ => ⟨(j 1).val, (j 1).isLt⟩

/-- What the body stores, at an entry: at the ideal values the narrowing of both factors changes nothing and the
    product into a zero accumulator is the plain sum of products over the 128 shared indices. -/
private theorem body_apply (xb : Vec Ideal S5000x128 .f32) (wb : Vec Ideal S128x128 .f32) (j : S5000x128.Idx) :
    k2_pay1 (F := Ideal) xb wb j = ∑ k : Fin 128, xb (blockRowAt j k) * wb (weightColAt j k) := by
  unfold k2_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockRowAt j k := funext fun a => Fin.ext (by
    match a with
    | ⟨0, _⟩ => exact lhsBlock_row _ _
    | ⟨1, _⟩ => exact (lhsBlock_col _ _).trans hk)
  have er : dot_S5000x128_S128x128_S5000x128_1_0_0_1_n_n.rhsIdx j ((ValueIdx.contrEquiv1 dot_S5000x128_S128x128_S5000x128_1_0_0_1_n_n 128 rfl rfl).symm k) = weightColAt j k := funext fun a => Fin.ext (by
    match a with
    | ⟨0, _⟩ => exact (rhsBlock_row _ _).trans hk
    | ⟨1, _⟩ => exact rhsBlock_col _ _)
  -- narrowing a factor, and re-reading a block at its own shape, change no entry at the ideal values
  simp only [ValueIdx.truncf_apply, shapeCast_self, el, er]

variable (V : (c : Dev nD) → (b : Ref sig .tc) → Buf (Elt Ideal) ((c : Thread nD τ).loc b))

/-! ## From the 20 blocks to the whole array -/

private theorem zeroOffsets : (![0, 0] : Fin 2 → Nat) = fun _ => 0 := funext fun a => by fin_cases a <;> rfl

/-- A block's product at an entry is the whole product at the array's entry, once the block of the left factor holds
    the row of the array that entry lies in and the block of the right factor holds the right factor. -/
private theorem body_eq_lin (x : (⟨Cert.ReferenceIdeal.S100000x128, .f32⟩ : BufTy).Contents (Elt Ideal))
    (w : (⟨Cert.ReferenceIdeal.S128x128, .f32⟩ : BufTy).Contents (Elt Ideal))
    (xb : Vec Ideal S5000x128 .f32) (wb : Vec Ideal S128x128 .f32) (j : S5000x128.Idx) (i : Cert.ReferenceIdeal.S100000x128.Idx)
    (hx : ∀ k : Fin 128, xb (blockRowAt j k) = x (Cert.ReferenceIdeal.Read.lidx_main_v4 i k))
    (hw : ∀ k : Fin 128, wb (weightColAt j k) = w (Cert.ReferenceIdeal.Read.ridx_main_v4 i k)) :
    k2_pay1 (F := Ideal) xb wb j = Cert.Gcn.lin (F := Ideal) x w i := by
  rw [body_apply]
  show _ = Cert.ReferenceIdeal.Read.val_main_v4 (F := Ideal) x w i
  rw [Cert.ReferenceIdeal.Read.val_main_v4_apply]
  exact Finset.sum_congr rfl fun k _ => by rw [hx k, hw k]

/-- The printed index maps over the grid: at point t the left factor's window and the output's window are at block
    (t, 0), the right factor's at block (0, 0). -/
private theorem blockIndices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t, at an entry, is the array at the entry the window's offsets send it to. -/
private theorem xBlock_apply (c : Dev nD) (t : Fin cfg2.N) (y : S5000x128.Idx) (i : S100000x128.Idx)
    (h0 : (i 0).val = win2_0.index t (0 : Fin 2) * 5000 + (y 0).val)
    (h1 : (i 1).val = win2_0.index t (1 : Fin 2) * 128 + (y 1).val) :
    (iblk2 (F := Ideal) V c 0 t : Vec Ideal S5000x128 .f32) y = (V c main_v42 : S100000x128.Idx → Elt Ideal .f32) i := by
  unfold iblk2
  rw [View.read_apply]
  show V c main_v42 _ = V c main_v42 _
  congr 1
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The right factor's block at point t likewise. -/
private theorem wBlock_apply (c : Dev nD) (t : Fin cfg2.N) (y : S128x128.Idx) (i : S128x128.Idx)
    (h0 : (i 0).val = win2_1.index t (0 : Fin 2) * 128 + (y 0).val)
    (h1 : (i 1).val = win2_1.index t (1 : Fin 2) * 128 + (y 1).val) :
    (iblk2 (F := Ideal) V c 1 t : Vec Ideal S128x128 .f32) y = (V c main_arg5 : S128x128.Idx → Elt Ideal .f32) i := by
  unfold iblk2
  rw [View.read_apply]
  show V c main_arg5 _ = V c main_arg5 _
  congr 1
  funext a
  apply Fin.ext
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- What point t writes back is block t of the whole product of the two arrays the region reads. -/
private theorem flushed_eq (c : Dev nD) (t : Fin cfg2.N) :
    (dat2 (F := Ideal) V c).flushed 2 t
      = ((cfg2.win 2).blk t).view.read (Elt Ideal) (Cert.Gcn.lin (F := Ideal) (V c main_v42) (V c main_arg5)) := by
  show (cfg2.win 2).cut (grid2.coords t) ((dat2 (F := Ideal) V c).after 2 t) = _
  rw [after2_2]
  unfold out2_2
  rw [View.canon_unit_zero zeroOffsets]
  simp only [View.ld_unit_zero (S := S5000x128) zeroOffsets, View.ld_unit_zero (S := S128x128) zeroOffsets]
  obtain ⟨e0, e1, e2, e3, e4, e5⟩ := blockIndices t
  funext j
  refine body_eq_lin (V c main_v42) (V c main_arg5) (iblk2 (F := Ideal) V c 0 t) (iblk2 (F := Ideal) V c 1 t) j (((cfg2.win 2).blk t).view.emb j) (fun k => ?_) (fun k => ?_)
  · refine xBlock_apply V c t _ _ ?_ ?_
    · show win2_2.index t (0 : Fin 2) * 5000 + 1 * (j 0).val = win2_0.index t (0 : Fin 2) * 5000 + (j 0).val
      omega
    · show k.val = win2_0.index t (1 : Fin 2) * 128 + k.val
      omega
  · refine wBlock_apply V c t _ _ ?_ ?_
    · show k.val = win2_1.index t (0 : Fin 2) * 128 + k.val
      omega
    · show win2_2.index t (1 : Fin 2) * 128 + 1 * (j 1).val = win2_1.index t (1 : Fin 2) * 128 + (j 1).val
      omega

/-- An entry of the array lies in point t's block iff each coordinate lies in the block's range on its axis. -/
private theorem mem_outBlock (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every entry of the array lies in some point's block: row r lies in block r / 5000. -/
private theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, e4, e5⟩ := blockIndices ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_outBlock]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

theorem final (c : Dev nD) :
    (dat2 (F := Ideal) V c).arrAt 2 cfg2.N = Cert.Gcn.lin (F := Ideal) (V c main_v42) (V c main_arg5) :=
  (dat2 (F := Ideal) V c).arrAt_eq_of_cover 2 (Cert.Gcn.lin (F := Ideal) (V c main_v42) (V c main_arg5))
    (fun t _ => flushed_eq V c t) covered

end Cert.KernelIdeal.Dense2

end
-- ==== Proof.Dense4.lean ====
/-
  Region 4 of the kernel program (a product of matrices tiled over 20 blocks of 5000 rows): the array it leaves is
  the whole product x W of the two arrays it reads, whatever the buffers hold when the region is entered.
-/
import proofs.«412704_j34110630265034_1_alg».proof.Proof.Gen.KernelIdeal.Frame
import proofs.«412704_j34110630265034_1_alg».proof.Proof.Gen.ReferenceIdeal.Read
import proofs.«412704_j34110630265034_1_alg».proof.Proof.Gcn
import Idealize.ShloMosaic.PureOps.Ideal.Laws
import Idealize.ShloMosaic.Lib.ValueIdx
import Idealize.ShloMosaic.Lib.Pipeline.Value

set_option maxRecDepth 16384

noncomputable section

namespace Cert.KernelIdeal.Dense4

open Cert.KernelIdeal Cert.KernelIdeal.Gen
open Idealize.ShloMosaic Idealize.ShloMosaic.TcCoe Idealize.SL.Sem
open Idealize.ShloMosaic.Pipeline (Dat Cfg Window)

/-! ## One block's product, entry by entry -/

/-- Row coordinate of the left factor's entry met by an output entry: the output's row. -/
private theorem lhsBlock_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate: the summation index. -/
private theorem lhsBlock_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Row coordinate of the right factor's entry: the summation index. -/
private theorem rhsBlock_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Its column coordinate: the output's column. -/
private theorem rhsBlock_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of j, k) of a block of 5000 rows. -/
private abbrev blockRowAt (j : S5000x128.Idx) (k : Fin 128) : S5000x128.Idx := fun a => match a with
  | ⟨0, _⟩ => ⟨(j 0).val, (j 0).isLt⟩
  | ⟨1, _⟩ => ⟨k.val, k.isLt⟩
/-- Entry (k, column of j) of the square factor. -/
private abbrev weightColAt (j : S5000x128.Idx) (k : Fin 128) : S128x128.Idx := fun a => match a with
  | ⟨0, _⟩ => ⟨k.val, k.isLt⟩
  | ⟨1, _⟩ => ⟨(j 1).val, (j 1).isLt⟩

/-- What the body stores, at an entry: at the ideal values the narrowing of both factors changes nothing and the
    product into a zero accumulator is the plain sum of products over the 128 shared indices. -/
private theorem body_apply (xb : Vec Ideal S5000x128 .f32) (wb : Vec Ideal S128x128 .f32) (j : S5000x128.Idx) :
    k4_pay1 (F := Ideal) xb wb j = ∑ k : Fin 128, xb (blockRowAt j k) * wb (weightColAt j k) := by
  unfold k4_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockRowAt j k := funext fun a => Fin.ext (by
    match a with
    | ⟨0, _⟩ => exact lhsBlock_row _ _
    | ⟨1, _⟩ => exact (lhsBlock_col _ _).trans hk)
  have er : dot_S5000x128_S128x128_S5000x128_1_0_0_1_n_n.rhsIdx j ((ValueIdx.contrEquiv1 dot_S5000x128_S128x128_S5000x128_1_0_0_1_n_n 128 rfl rfl).symm k) = weightColAt j k := funext fun a => Fin.ext (by
    match a with
    | ⟨0, _⟩ => exact (rhsBlock_row _ _).trans hk
    | ⟨1, _⟩ => exact rhsBlock_col _ _)
  -- narrowing a factor, and re-reading a block at its own shape, change no entry at the ideal values
  simp only [ValueIdx.truncf_apply, shapeCast_self, el, er]

variable (V : (c : Dev nD) → (b : Ref sig .tc) → Buf (Elt Ideal) ((c : Thread nD τ).loc b))

/-! ## From the 20 blocks to the whole array -/

private theorem zeroOffsets : (![0, 0] : Fin 2 → Nat) = fun _ => 0 := funext fun a => by fin_cases a <;> rfl

/-- A block's product at an entry is the whole product at the array's entry, once the block of the left factor holds
    the row of the array that entry lies in and the block of the right factor holds the right factor. -/
private theorem body_eq_lin (x : (⟨Cert.ReferenceIdeal.S100000x128, .f32⟩ : BufTy).Contents (Elt Ideal))
    (w : (⟨Cert.ReferenceIdeal.S128x128, .f32⟩ : BufTy).Contents (Elt Ideal))
    (xb : Vec Ideal S5000x128 .f32) (wb : Vec Ideal S128x128 .f32) (j : S5000x128.Idx) (i : Cert.ReferenceIdeal.S100000x128.Idx)
    (hx : ∀ k : Fin 128, xb (blockRowAt j k) = x (Cert.ReferenceIdeal.Read.lidx_main_v4 i k))
    (hw : ∀ k : Fin 128, wb (weightColAt j k) = w (Cert.ReferenceIdeal.Read.ridx_main_v4 i k)) :
    k4_pay1 (F := Ideal) xb wb j = Cert.Gcn.lin (F := Ideal) x w i := by
  rw [body_apply]
  show _ = Cert.ReferenceIdeal.Read.val_main_v4 (F := Ideal) x w i
  rw [Cert.ReferenceIdeal.Read.val_main_v4_apply]
  exact Finset.sum_congr rfl fun k _ => by rw [hx k, hw k]

/-- The printed index maps over the grid: at point t the left factor's window and the output's window are at block
    (t, 0), the right factor's at block (0, 0). -/
private theorem blockIndices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left factor's block at point t, at an entry, is the array at the entry the window's offsets send it to. -/
private theorem xBlock_apply (c : Dev nD) (t : Fin cfg4.N) (y : S5000x128.Idx) (i : S100000x128.Idx)
    (h0 : (i 0).val = win4_0.index t (0 : Fin 2) * 5000 + (y 0).val)
    (h1 : (i 1).val = win4_0.index t (1 : Fin 2) * 128 + (y 1).val) :
    (iblk4 (F := Ideal) V c 0 t : Vec Ideal S5000x128 .f32) y = (V c main_v57 : S100000x128.Idx → Elt Ideal .f32) i := by
  unfold iblk4
  rw [View.read_apply]
  show V c main_v57 _ = V c main_v57 _
  congr 1
  funext a
  apply Fin.ext
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- The right factor's block at point t likewise. -/
private theorem wBlock_apply (c : Dev nD) (t : Fin cfg4.N) (y : S128x128.Idx) (i : S128x128.Idx)
    (h0 : (i 0).val = win4_1.index t (0 : Fin 2) * 128 + (y 0).val)
    (h1 : (i 1).val = win4_1.index t (1 : Fin 2) * 128 + (y 1).val) :
    (iblk4 (F := Ideal) V c 1 t : Vec Ideal S128x128 .f32) y = (V c main_arg7 : S128x128.Idx → Elt Ideal .f32) i := by
  unfold iblk4
  rw [View.read_apply]
  show V c main_arg7 _ = V c main_arg7 _
  congr 1
  funext a
  apply Fin.ext
  match a with
  | ⟨0, _⟩ => show win4_1.index t (0 : Fin 2) * 128 + 1 * (y 0).val = (i 0).val; omega
  | ⟨1, _⟩ => show win4_1.index t (1 : Fin 2) * 128 + 1 * (y 1).val = (i 1).val; omega

/-- What point t writes back is block t of the whole product of the two arrays the region reads. -/
private theorem flushed_eq (c : Dev nD) (t : Fin cfg4.N) :
    (dat4 (F := Ideal) V c).flushed 2 t
      = ((cfg4.win 2).blk t).view.read (Elt Ideal) (Cert.Gcn.lin (F := Ideal) (V c main_v57) (V c main_arg7)) := by
  show (cfg4.win 2).cut (grid4.coords t) ((dat4 (F := Ideal) V c).after 2 t) = _
  rw [after4_2]
  unfold out4_2
  rw [View.canon_unit_zero zeroOffsets]
  simp only [View.ld_unit_zero (S := S5000x128) zeroOffsets, View.ld_unit_zero (S := S128x128) zeroOffsets]
  obtain ⟨e0, e1, e2, e3, e4, e5⟩ := blockIndices t
  funext j
  refine body_eq_lin (V c main_v57) (V c main_arg7) (iblk4 (F := Ideal) V c 0 t) (iblk4 (F := Ideal) V c 1 t) j (((cfg4.win 2).blk t).view.emb j) (fun k => ?_) (fun k => ?_)
  · refine xBlock_apply V c t _ _ ?_ ?_
    · show win4_2.index t (0 : Fin 2) * 5000 + 1 * (j 0).val = win4_0.index t (0 : Fin 2) * 5000 + (j 0).val
      omega
    · show k.val = win4_0.index t (1 : Fin 2) * 128 + k.val
      omega
  · refine wBlock_apply V c t _ _ ?_ ?_
    · show k.val = win4_1.index t (0 : Fin 2) * 128 + k.val
      omega
    · show win4_2.index t (1 : Fin 2) * 128 + 1 * (j 1).val = win4_1.index t (1 : Fin 2) * 128 + (j 1).val
      omega

/-- An entry of the array lies in point t's block iff each coordinate lies in the block's range on its axis. -/
private theorem mem_outBlock (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v58).slice (win4_2.rect t)).set ↔ _
  rw [View.set_slice_whole, Rect.mem_set_unit]
  exact Iff.rfl

/-- Every entry of the array lies in some point's block: row r lies in block r / 5000. -/
private theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨-, -, -, -, e4, e5⟩ := blockIndices ⟨(i 0).val / 5000, ht⟩
  have e4' : win4_2.index ⟨(i 0).val / 5000, ht⟩ (0 : Fin 2) = (i 0).val / 5000 := e4
  refine ⟨⟨(i 0).val / 5000, ht⟩, flush4_2 _, ?_⟩
  rw [mem_outBlock]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    omega

theorem final (c : Dev nD) :
    (dat4 (F := Ideal) V c).arrAt 2 cfg4.N = Cert.Gcn.lin (F := Ideal) (V c main_v57) (V c main_arg7) :=
  (dat4 (F := Ideal) V c).arrAt_eq_of_cover 2 (Cert.Gcn.lin (F := Ideal) (V c main_v57) (V c main_arg7))
    (fun t _ => flushed_eq V c t) covered

end Cert.KernelIdeal.Dense4

end
-- ==== Proof.Mix1.lean ====
/-
  Region 1 of the kernel program (a pointwise expression tiled over 20 blocks of 5000 rows): the array it leaves is
  max(a + q ⊙ h + b, 0) of the four arrays it reads (q a one-column array repeated along the features, b a row
  repeated over the nodes), whatever the buffers hold when the region is entered.

  The proof reads both sides at one entry (n, d). The expression on whole arrays reads a[n,d], h[n,d], q[n,0] and
  b[d]; the value a grid point t stores at (p, d) of its block reads the same four entries of the blocks it loaded,
  and those blocks are rows 5000 t … 5000 t + 4999 of a, h and q (all of b), so with n = 5000 t + p the two agree.
  Every row n lies in the block of exactly the point n / 5000, so the blocks written back fill the whole array.
-/
import proofs.«412704_j34110630265034_1_alg».proof.Proof.Gen.KernelIdeal.Frame
import proofs.«412704_j34110630265034_1_alg».proof.Proof.Gcn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Mix1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## Both sides at one entry -/

/-- A one-column array repeated along a second axis reads, at (p, c), the single entry of its row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry (p, d) of what the body stores, from the four blocks it loaded: the casts to the same shape change
    nothing, the column block x2 is read at (p, 0) and the row x3 at d. -/
private theorem stored_entry (x0 x1 : Vec Ideal S5000x128 .f32) (x2 : Vec Ideal S5000x1 .f32) (x3 : Vec Ideal S128 .f32)
    (p : Fin 5000) (d : Fin 128) :
    k1_pay1 (F := Ideal) x0 x2 x1 x3 (ix2 p d)
      = max ((x0 (ix2 p d) + x2 (ix2 p (0 : Fin 1)) * x1 (ix2 p d)) + x3 (ix1 d)) (Ideal.ofBits .f32 0x00000000#32) := by
  unfold k1_pay1
  rw [maximumf_apply, addf_apply, addf_apply, mulf_apply, broadcast_apply, shapeCast_self, shapeCast_self, shapeCast_self,
    broadcastTo_a1_ab_apply, broadcastTo_1b_ab_apply, shapeCast_a_1a_apply]
  rfl

/-- The entry (n, d) of the expression on whole arrays: the column q is read at (n, 0), the bias row at d. -/
private theorem relu_combineCol_apply (q : (⟨Cert.ReferenceIdeal.S100000x1, .f32⟩ : BufTy).Contents (Elt Ideal))
    (a h : (⟨Cert.ReferenceIdeal.S100000x128, .f32⟩ : BufTy).Contents (Elt Ideal))
    (b : (⟨Cert.ReferenceIdeal.S128, .f32⟩ : BufTy).Contents (Elt Ideal)) (n : Fin 100000) (d : Fin 128) :
    Cert.Gcn.relu (F := Ideal) (Cert.Gcn.combineCol (F := Ideal) q a h b) (ix2 n d)
      = max ((a (ix2 n d) + q (ix2 n (0 : Fin 1)) * h (ix2 n d)) + b (ix1 d)) (Ideal.ofBits .f32 0x00000000#32) := by
  unfold Cert.Gcn.relu Cert.Gcn.combineCol Cert.Gcn.biasRows
  rw [maximumf_apply, addf_apply, addf_apply, mulf_apply]
  rw [broadcastInDim_apply _ Cert.ReferenceIdeal.Gen.bcast_S100000x1_S100000x128_0_1 q (ix2 n d) (ix2 n (0 : Fin 1)) (fun ax => match ax with
      | ⟨0, _⟩ => by show n.val = if (100000 : Nat) = 1 then 0 else n.val; rw [if_neg (by decide)]
      | ⟨1, _⟩ => by show 0 = if (1 : Nat) = 1 then 0 else d.val; rw [if_pos rfl])]
  rw [broadcastInDim_apply _ Cert.ReferenceIdeal.Gen.bcast_S1x128_S100000x128_0_1 _ (ix2 n d) (ix2 (0 : Fin 1) d) (fun ax => match ax with
      | ⟨0, _⟩ => by show 0 = if (1 : Nat) = 1 then 0 else n.val; rw [if_pos rfl]
      | ⟨1, _⟩ => by show d.val = if (128 : Nat) = 1 then 0 else d.val; rw [if_neg (by decide)])]
  rw [broadcastInDim_apply _ Cert.ReferenceIdeal.Gen.bcast_S128_S1x128_1 b (ix2 (0 : Fin 1) d) (ix1 d) (fun ax => match ax with
      | ⟨0, _⟩ => by show d.val = if (128 : Nat) = 1 then 0 else d.val; rw [if_neg (by decide)])]
  rw [broadcastInDim_apply _ Cert.ReferenceIdeal.Gen.bcast_S_S100000x128 _ (ix2 n d) ix0 (fun ax => ax.elim0)]
  rfl

/-- If the loaded blocks hold, at row p, what the arrays hold at row n, the stored entry (p, d) is the entry (n, d)
    of the expression on whole arrays. -/
private theorem stored_entry_eq (x0 x1 : Vec Ideal S5000x128 .f32) (x2 : Vec Ideal S5000x1 .f32) (x3 : Vec Ideal S128 .f32)
    (q : (⟨Cert.ReferenceIdeal.S100000x1, .f32⟩ : BufTy).Contents (Elt Ideal))
    (a h : (⟨Cert.ReferenceIdeal.S100000x128, .f32⟩ : BufTy).Contents (Elt Ideal))
    (b : (⟨Cert.ReferenceIdeal.S128, .f32⟩ : BufTy).Contents (Elt Ideal))
    (p : Fin 5000) (d : Fin 128) (n : Fin 100000)
    (h0 : x0 (ix2 p d) = a (ix2 n d)) (h1 : x1 (ix2 p d) = h (ix2 n d))
    (h2 : x2 (ix2 p (0 : Fin 1)) = q (ix2 n (0 : Fin 1))) (h3 : x3 (ix1 d) = b (ix1 d)) :
    k1_pay1 (F := Ideal) x0 x2 x1 x3 (ix2 p d)
      = Cert.Gcn.relu (F := Ideal) (Cert.Gcn.combineCol (F := Ideal) q a h b) (ix2 n d) := by
  rw [stored_entry, relu_combineCol_apply, h0, h1, h2, h3]

/-! ## From the blocks to the array -/

variable (V : (c : Dev nD) → (b : Ref sig .tc) → Buf (Elt Ideal) ((c : Thread nD τ).loc b))

private theorem zero_offsets2 : (![0, 0] : Fin 2 → Nat) = fun _ => 0 := funext fun a => by fin_cases a <;> rfl
private theorem zero_offsets1 : (![0] : Fin 1 → Nat) = fun _ => 0 := funext fun a => by fin_cases a; rfl

/-- The block each window holds at grid point t, decided over the 20 points: block t along the rows for the three
    tiled inputs and for the result, the one block of the bias row. -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is block t of the expression on whole arrays: entry (p, d) of the block is entry
    (5000 t + p, d) of the array, and each loaded block is read at the rows the result's block names. -/
private theorem written_back (c : Dev nD) (t : Fin cfg1.N) :
    (dat1 (F := Ideal) V c).flushed 4 t = ((cfg1.win 4).blk t).view.read (Elt Ideal)
      (Cert.Gcn.relu (F := Ideal) (Cert.Gcn.combineCol (F := Ideal) (V c main_v12) (V c main_v41) (V c main_v28) (V c main_arg4))) := by
  show (cfg1.win 4).cut _ ((dat1 V c).after 4 t) = _
  rw [after1_4]
  unfold out1_4
  rw [View.canon_unit_zero zero_offsets2]
  simp only [View.ld_unit_zero (S := S5000x128) zero_offsets2, View.ld_unit_zero (S := S5000x1) zero_offsets2,
    View.ld_unit_zero (S := S128) zero_offsets1]
  obtain ⟨e00, e01, e10, e11, e20, e21, e30, e40, e41⟩ := block_indices t
  have ht : t.val < 20 := lt_of_lt_of_eq t.isLt N_1
  funext j
  obtain ⟨p, d, rfl⟩ : ∃ (p : Fin 5000) (d : Fin 128), j = ix2 p d := ⟨j 0, j 1, eq_ix2 j⟩
  have hp : p.val < 5000 := p.isLt
  have hn : t.val * 5000 + p.val < 100000 := by omega
  have he : ((cfg1.win 4).blk t).view.emb (ix2 p d) = ix2 (⟨t.val * 5000 + p.val, hn⟩ : Fin 100000) d := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * d.val = d.val; omega
  rw [View.read_apply, he]
  show k1_pay1 _ _ _ _ (ix2 p d) = _
  refine stored_entry_eq _ _ _ _ _ _ _ _ p d _ ?_ ?_ ?_ ?_
  · show V c main_v41 (((cfg1.win 0).blk t).view.emb (ix2 p d)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * d.val = d.val; omega
  · show V c main_v28 (((cfg1.win 1).blk t).view.emb (ix2 p d)) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * d.val = d.val; omega
  · show V c main_v12 (((cfg1.win 2).blk t).view.emb (ix2 p (0 : Fin 1))) = _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · show V c main_arg4 (((cfg1.win 3).blk t).view.emb (ix1 d)) = _
    refine congrArg _ (funext fun a => Fin.ext ?_)
    match a with
    | ⟨0, _⟩ => show win1_3.index t (0 : Fin 1) * 128 + 1 * d.val = d.val; omega

/-- An entry of the array lies in point t's block of the result exactly when each coordinate lies in the block's
    range on its axis. -/
private theorem mem_block_iff (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

/-- Every entry is written back by some point: row r lies in the block of point r / 5000. -/
private theorem rows_covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  refine ⟨⟨(i 0).val / 5000, hN⟩, flush1_4 _, ?_⟩
  obtain ⟨-, -, -, -, -, -, -, e40, e41⟩ := block_indices ⟨(i 0).val / 5000, hN⟩
  rw [mem_block_iff]
  intro a
  match a with
  | ⟨0, _⟩ =>
    show win1_4.index _ (0 : Fin 2) * 5000 ≤ (i 0).val ∧ (i 0).val < win1_4.index _ (0 : Fin 2) * 5000 + 5000
    rw [e40]
    show (i 0).val / 5000 * 5000 ≤ (i 0).val ∧ (i 0).val < (i 0).val / 5000 * 5000 + 5000
    omega
  | ⟨1, _⟩ =>
    show win1_4.index _ (1 : Fin 2) * 128 ≤ (i 1).val ∧ (i 1).val < win1_4.index _ (1 : Fin 2) * 128 + 128
    rw [e41]
    omega

theorem final (c : Dev nD) :
    (dat1 (F := Ideal) V c).arrAt 4 cfg1.N
      = Cert.Gcn.relu (F := Ideal) (Cert.Gcn.combineCol (F := Ideal) (V c main_v12) (V c main_v41) (V c main_v28) (V c main_arg4)) :=
  (dat1 (F := Ideal) V c).arrAt_eq_of_cover 4 _ (fun t _ => written_back V c t) rows_covered

end Cert.KernelIdeal.Mix1

end
-- ==== Proof.Mix3.lean ====
/-
  Region 3 of the kernel program (a pointwise expression tiled over 20 blocks of 5000 rows): the array it leaves is
  max(a + q ⊙ h + b, 0) of the four arrays it reads (q a one-column array repeated along the features, b a row
  repeated over the nodes), whatever the buffers hold when the region is entered.

  The proof reads both sides at one entry (n, d). The expression on whole arrays reads a[n,d], h[n,d], q[n,0] and
  b[d]; the value a grid point t stores at (p, d) of its block reads the same four entries of the blocks it loaded,
  and those blocks are rows 5000 t … 5000 t + 4999 of a, h and q (all of b), so with n = 5000 t + p the two agree.
  Every row n lies in the block of exactly the point n / 5000, so the blocks written back fill the whole array.
-/
import proofs.«412704_j34110630265034_1_alg».proof.Proof.Gen.KernelIdeal.Frame
import proofs.«412704_j34110630265034_1_alg».proof.Proof.Gcn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Mix3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## Both sides at one entry -/

/-- A one-column array repeated along a second axis reads, at (p, c), the single entry of its row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry (p, d) of what the body stores, from the four blocks it loaded: the casts to the same shape change
    nothing, the column block x2 is read at (p, 0) and the row x3 at d. -/
private theorem stored_entry (x0 x1 : Vec Ideal S5000x128 .f32) (x2 : Vec Ideal S5000x1 .f32) (x3 : Vec Ideal S128 .f32)
    (p : Fin 5000) (d : Fin 128) :
    k3_pay1 (F := Ideal) x0 x2 x1 x3 (ix2 p d)
      = max ((x0 (ix2 p d) + x2 (ix2 p (0 : Fin 1)) * x1 (ix2 p d)) + x3 (ix1 d)) (Ideal.ofBits .f32 0x00000000#32) := by
  unfold k3_pay1
  rw [maximumf_apply, addf_apply, addf_apply, mulf_apply, broadcast_apply, shapeCast_self, shapeCast_self, shapeCast_self,
    broadcastTo_a1_ab_apply, broadcastTo_1b_ab_apply, shapeCast_a_1a_apply]
  rfl

/-- The entry (n, d) of the expression on whole arrays: the column q is read at (n, 0), the bias row at d. -/
private theorem relu_combineCol_apply (q : (⟨Cert.ReferenceIdeal.S100000x1, .f32⟩ : BufTy).Contents (Elt Ideal))
    (a h : (⟨Cert.ReferenceIdeal.S100000x128, .f32⟩ : BufTy).Contents (Elt Ideal))
    (b : (⟨Cert.ReferenceIdeal.S128, .f32⟩ : BufTy).Contents (Elt Ideal)) (n : Fin 100000) (d : Fin 128) :
    Cert.Gcn.relu (F := Ideal) (Cert.Gcn.combineCol (F := Ideal) q a h b) (ix2 n d)
      = max ((a (ix2 n d) + q (ix2 n (0 : Fin 1)) * h (ix2 n d)) + b (ix1 d)) (Ideal.ofBits .f32 0x00000000#32) := by
  unfold Cert.Gcn.relu Cert.Gcn.combineCol Cert.Gcn.biasRows
  rw [maximumf_apply, addf_apply, addf_apply, mulf_apply]
  rw [broadcastInDim_apply _ Cert.ReferenceIdeal.Gen.bcast_S100000x1_S100000x128_0_1 q (ix2 n d) (ix2 n (0 : Fin 1)) (fun ax => match ax with
      | ⟨0, _⟩ => by show n.val = if (100000 : Nat) = 1 then 0 else n.val; rw [if_neg (by decide)]
      | ⟨1, _⟩ => by show 0 = if (1 : Nat) = 1 then 0 else d.val; rw [if_pos rfl])]
  rw [broadcastInDim_apply _ Cert.ReferenceIdeal.Gen.bcast_S1x128_S100000x128_0_1 _ (ix2 n d) (ix2 (0 : Fin 1) d) (fun ax => match ax with
      | ⟨0, _⟩ => by show 0 = if (1 : Nat) = 1 then 0 else n.val; rw [if_pos rfl]
      | ⟨1, _⟩ => by show d.val = if (128 : Nat) = 1 then 0 else d.val; rw [if_neg (by decide)])]
  rw [broadcastInDim_apply _ Cert.ReferenceIdeal.Gen.bcast_S128_S1x128_1 b (ix2 (0 : Fin 1) d) (ix1 d) (fun ax => match ax with
      | ⟨0, _⟩ => by show d.val = if (128 : Nat) = 1 then 0 else d.val; rw [if_neg (by decide)])]
  rw [broadcastInDim_apply _ Cert.ReferenceIdeal.Gen.bcast_S_S100000x128 _ (ix2 n d) ix0 (fun ax => ax.elim0)]
  rfl

/-- If the loaded blocks hold, at row p, what the arrays hold at row n, the stored entry (p, d) is the entry (n, d)
    of the expression on whole arrays. -/
private theorem stored_entry_eq (x0 x1 : Vec Ideal S5000x128 .f32) (x2 : Vec Ideal S5000x1 .f32) (x3 : Vec Ideal S128 .f32)
    (q : (⟨Cert.ReferenceIdeal.S100000x1, .f32⟩ : BufTy).Contents (Elt Ideal))
    (a h : (⟨Cert.ReferenceIdeal.S100000x128, .f32⟩ : BufTy).Contents (Elt Ideal))
    (b : (⟨Cert.ReferenceIdeal.S128, .f32⟩ : BufTy).Contents (Elt Ideal))
    (p : Fin 5000) (d : Fin 128) (n : Fin 100000)
    (h0 : x0 (ix2 p d) = a (ix2 n d)) (h1 : x1 (ix2 p d) = h (ix2 n d))
    (h2 : x2 (ix2 p (0 : Fin 1)) = q (ix2 n (0 : Fin 1))) (h3 : x3 (ix1 d) = b (ix1 d)) :
    k3_pay1 (F := Ideal) x0 x2 x1 x3 (ix2 p d)
      = Cert.Gcn.relu (F := Ideal) (Cert.Gcn.combineCol (F := Ideal) q a h b) (ix2 n d) := by
  rw [stored_entry, relu_combineCol_apply, h0, h1, h2, h3]

/-! ## From the blocks to the array -/

variable (V : (c : Dev nD) → (b : Ref sig .tc) → Buf (Elt Ideal) ((c : Thread nD τ).loc b))

private theorem zero_offsets2 : (![0, 0] : Fin 2 → Nat) = fun _ => 0 := funext fun a => by fin_cases a <;> rfl
private theorem zero_offsets1 : (![0] : Fin 1 → Nat) = fun _ => 0 := funext fun a => by fin_cases a; rfl

/-- The block each window holds at grid point t, decided over the 20 points: block t along the rows for the three
    tiled inputs and for the result, the one block of the bias row. -/
private theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point t writes back is block t of the expression on whole arrays: entry (p, d) of the block is entry
    (5000 t + p, d) of the array, and each loaded block is read at the rows the result's block names. -/
private theorem written_back (c : Dev nD) (t : Fin cfg3.N) :
    (dat3 (F := Ideal) V c).flushed 4 t = ((cfg3.win 4).blk t).view.read (Elt Ideal)
      (Cert.Gcn.relu (F := Ideal) (Cert.Gcn.combineCol (F := Ideal) (V c main_v12) (V c main_v56) (V c main_v43) (V c main_arg6))) := by
  show (cfg3.win 4).cut _ ((dat3 V c).after 4 t) = _
  rw [after3_4]
  unfold out3_4
  rw [View.canon_unit_zero zero_offsets2]
  simp only [View.ld_unit_zero (S := S5000x128) zero_offsets2, View.ld_unit_zero (S := S5000x1) zero_offsets2,
    View.ld_unit_zero (S := S128) zero_offsets1]
  obtain ⟨e00, e01, e10, e11, e20, e21, e30, e40, e41⟩ := block_indices t
  have ht : t.val < 20 := lt_of_lt_of_eq t.isLt N_3
  funext j
  obtain ⟨p, d, rfl⟩ : ∃ (p : Fin 5000) (d : Fin 128), j = ix2 p d := ⟨j 0, j 1, eq_ix2 j⟩
  have hp : p.val < 5000 := p.isLt
  have hn : t.val * 5000 + p.val < 100000 := by omega
  have he : ((cfg3.win 4).blk t).view.emb (ix2 p d) = ix2 (⟨t.val * 5000 + p.val, hn⟩ : Fin 100000) d := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * d.val = d.val; omega
  rw [View.read_apply, he]
  show k3_pay1 _ _ _ _ (ix2 p d) = _
  refine stored_entry_eq _ _ _ _ _ _ _ _ p d _ ?_ ?_ ?_ ?_
  · show V c main_v56 (((cfg3.win 0).blk t).view.emb (ix2 p d)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * d.val = d.val; omega
  · show V c main_v43 (((cfg3.win 1).blk t).view.emb (ix2 p d)) = _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * d.val = d.val; omega
  · show V c main_v12 (((cfg3.win 2).blk t).view.emb (ix2 p (0 : Fin 1))) = _
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  · show V c main_arg6 (((cfg3.win 3).blk t).view.emb (ix1 d)) = _
    refine congrArg _ (funext fun a => Fin.ext ?_)
    match a with
    | ⟨0, _⟩ => show win3_3.index t (0 : Fin 1) * 128 + 1 * d.val = d.val; omega

/-- An entry of the array lies in point t's block of the result exactly when each coordinate lies in the block's
    range on its axis. -/
private theorem mem_block_iff (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

/-- Every entry is written back by some point: row r lies in the block of point r / 5000. -/
private theorem rows_covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  refine ⟨⟨(i 0).val / 5000, hN⟩, flush3_4 _, ?_⟩
  obtain ⟨-, -, -, -, -, -, -, e40, e41⟩ := block_indices ⟨(i 0).val / 5000, hN⟩
  rw [mem_block_iff]
  intro a
  match a with
  | ⟨0, _⟩ =>
    show win3_4.index _ (0 : Fin 2) * 5000 ≤ (i 0).val ∧ (i 0).val < win3_4.index _ (0 : Fin 2) * 5000 + 5000
    rw [e40]
    show (i 0).val / 5000 * 5000 ≤ (i 0).val ∧ (i 0).val < (i 0).val / 5000 * 5000 + 5000
    omega
  | ⟨1, _⟩ =>
    show win3_4.index _ (1 : Fin 2) * 128 ≤ (i 1).val ∧ (i 1).val < win3_4.index _ (1 : Fin 2) * 128 + 128
    rw [e41]
    omega

theorem final (c : Dev nD) :
    (dat3 (F := Ideal) V c).arrAt 4 cfg3.N
      = Cert.Gcn.relu (F := Ideal) (Cert.Gcn.combineCol (F := Ideal) (V c main_v12) (V c main_v56) (V c main_v43) (V c main_arg6)) :=
  (dat3 (F := Ideal) V c).arrAt_eq_of_cover 4 _ (fun t _ => written_back V c t) rows_covered

end Cert.KernelIdeal.Mix3

end
-- ==== Proof.Mix5.lean ====
/-
  Region 5 of the kernel program (a pointwise expression tiled over 20 blocks of 5000 rows): the array it leaves is
  a + q ⊙ h + b of the four arrays it reads (q a one-column array repeated along the features, b a row
  repeated over the nodes), whatever the buffers hold when the region is entered.

  The proof reads both sides at one entry (n, d). The expression on whole arrays reads a[n,d], h[n,d], q[n,0] and
  b[d]; the value a grid point t stores at (p, d) of its block reads the same four entries of the blocks it loaded,
  and those blocks are rows 5000 t … 5000 t + 4999 of a, h and q (all of b), so with n = 5000 t + p the two agree.
  Every row n lies in the block of exactly the point n / 5000, so the blocks written back fill the whole array.
-/
import proofs.«412704_j34110630265034_1_alg».proof.Proof.Gen.KernelIdeal.Frame
import proofs.«412704_j34110630265034_1_alg».proof.Proof.Gcn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Mix5

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## Both sides at one entry -/

/-- A one-column array repeated along a second axis reads, at (p, c), the single entry of its row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry (p, d) of what the body stores, from the four blocks it loaded: the casts to the same shape change
    nothing, the column block x2 is read at (p, 0) and the row x3 at d. -/
private theorem stored_entry (x0 x1 : Vec Ideal S5000x128 .f32) (x2 : Vec Ideal S5000x1 .f32) (x3 : Vec Ideal S128 .f32)
    (p : Fin 5000) (d : Fin 128) :
    k5_pay1 (F := Ideal) x0 x2 x1 x3 (ix2 p d)
      = (x0 (ix2 p d) + x2 (ix2 p (0 : Fin 1)) * x1 (ix2 p d)) + x3 (ix1 d) := by
  unfold k5_pay1
  rw [addf_apply, addf_apply, mulf_apply, shapeCast_self, shapeCast_self, shapeCast_self,
    broadcastTo_a1_ab_apply, broadcastTo_1b_ab_apply, shapeCast_a_1a_apply]

/-- The entry (n, d) of the expression on whole arrays: the column q is read at (n, 0), the bias row at d. -/
private theorem combineCol_apply (q : (⟨Cert.ReferenceIdeal.S100000x1, .f32⟩ : BufTy).Contents (Elt Ideal))
    (a h : (⟨Cert.ReferenceIdeal.S100000x128, .f32⟩ : BufTy).Contents (Elt Ideal))
    (b : (⟨Cert.ReferenceIdeal.S128, .f32⟩ : BufTy).Contents (Elt Ideal)) (n : Fin 100000) (d : Fin 128) :
    Cert.Gcn.combineCol (F := Ideal) q a h b (ix2 n d)
      = (a (ix2 n d) + q (ix2 n (0 : Fin 1)) * h (ix2 n d)) + b (ix1 d) := by
  unfold Cert.Gcn.combineCol Cert.Gcn.biasRows
  rw [addf_apply, addf_apply, mulf_apply]
  rw [broadcastInDim_apply _ Cert.ReferenceIdeal.Gen.bcast_S100000x1_S100000x128_0_1 q (ix2 n d) (ix2 n (0 : Fin 1)) (fun ax => match ax with
      | ⟨0, _⟩ => by show n.val = if (100000 : Nat) = 1 then 0 else n.val; rw [if_neg (by decide)]
      | ⟨1, _⟩ => by show 0 = if (1 : Nat) = 1 then 0 else d.val; rw [if_pos rfl])]
  rw [broadcastInDim_apply _ Cert.ReferenceIdeal.Gen.bcast_S1x128_S100000x128_0_1 _ (ix2 n d) (ix2 (0 : Fin 1) d) (fun ax => match ax with
      | ⟨0, _⟩ => by show 0 = if (1 : Nat) = 1 then 0 else n.val; rw [if_pos rfl]
      | ⟨1, _⟩ => by show d.val = if (128 : Nat) = 1 then 0 else d.val; rw [if_neg (by decide)])]
  rw [broadcastInDim_apply _ Cert.ReferenceIdeal.Gen.bcast_S128_S1x128_1 b (ix2 (0 : Fin 1) d) (ix1 d) (fun ax => match ax with
      | ⟨0, _⟩ => by show d.val = if (128 : Nat) = 1 then 0 else d.val; rw [if_neg (by decide)])]

/-- If the loaded blocks hold, at row p, what the arrays hold at row n, the stored entry (p, d) is the entry (n, d)
    of the expression on whole arrays. -/
private theorem stored_entry_eq (x0 x1 : Vec Ideal S5000x128 .f32) (x2 : Vec Ideal S5000x1 .f32) (x3 : Vec Ideal S128 .f32)
    (q : (⟨Cert.ReferenceIdeal.S100000x1, .f32⟩ : BufTy).Contents (Elt Ideal))
    (a h : (⟨Cert.ReferenceIdeal.S100000x128, .f32⟩ : BufTy).Contents (Elt Ideal))
    (b : (⟨Cert.ReferenceIdeal.S128, .f32⟩ : BufTy).Contents (Elt Ideal))
    (p : Fin 5000) (d : Fin 128) (n : Fin 100000)
    (h0 : x0 (ix2 p d) = a (ix2 n d)) (h1 : x1 (ix2 p d) = h (ix2 n d))
    (h2 : x2 (ix2 p (0 : Fin 1)) = q (ix2 n (0 : Fin 1))) (h3 : x3 (ix1 d) = b (ix1 d)) :
    k5_pay1 (F := Ideal) x0 x2 x1 x3 (ix2 p d) = Cert.Gcn.combineCol (F := Ideal) q a h b (ix2 n d) := by
  rw [stored_entry, combineCol_apply, h0, h1, h2, h3]

/-! ## From the blocks to the array -/

variable (V : (c : Dev nD) → (b : Ref sig .tc) → Buf (Elt Ideal) ((c : Thread nD τ).loc b))

private theorem zero_offsets2 : (![0, 0] : Fin 2 → Nat) = fun _ => 0 := funext fun a => by fin_cases a <;> rfl
private theorem zero_offsets1 : (![0] : Fin 1 → Nat) = fun _ => 0 := funext fun a => by fin_cases a; rfl

/-- The block each window holds at grid point t, decided over the 20 points: block t along the rows for the three
    tiled inputs and for the result, the one block of the bias row. -/
private theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- What point t writes back is block t of the expression on whole arrays: entry (p, d) of the block is entry
    (5000 t + p, d) of the array, and each loaded block is read at the rows the result's block names. -/
private theorem written_back (c : Dev nD) (t : Fin cfg5.N) :
    (dat5 (F := Ideal) V c).flushed 4 t = ((cfg5.win 4).blk t).view.read (Elt Ideal)
      (Cert.Gcn.combineCol (F := Ideal) (V c main_v12) (V c main_v71) (V c main_v58) (V c main_arg8)) := by
  show (cfg5.win 4).cut _ ((dat5 V c).after 4 t) = _
  rw [after5_4]
  unfold out5_4
  rw [View.canon_unit_zero zero_offsets2]
  simp only [View.ld_unit_zero (S := S5000x128) zero_offsets2, View.ld_unit_zero (S := S5000x1) zero_offsets2,
    View.ld_unit_zero (S := S128) zero_offsets1]
  obtain ⟨e00, e01, e10, e11, e20, e21, e30, e40, e41⟩ := block_indices t
  have ht : t.val < 20 := lt_of_lt_of_eq t.isLt N_5
  funext j
  obtain ⟨p, d, rfl⟩ : ∃ (p : Fin 5000) (d : Fin 128), j = ix2 p d := ⟨j 0, j 1, eq_ix2 j⟩
  have hp : p.val < 5000 := p.isLt
  have hn : t.val * 5000 + p.val < 100000 := by omega
  have he : ((cfg5.win 4).blk t).view.emb (ix2 p d) = ix2 (⟨t.val * 5000 + p.val, hn⟩ : Fin 100000) d := by
    funext a; apply Fin.ext
    match a with
    | ⟨0, _⟩ => show win5_4.index t (0 : Fin 2) * 5000 + 1 * p.val = t.val * 5000 + p.val; omega
    | ⟨1, _⟩ => show win5_4.index t (1 : Fin 2) * 128 + 1 * d.val = d.val; omega
  rw [View.read_apply, he]
  show k5_pay1 _ _ _ _ (ix2 p d) = _
  refine stored_entry_eq _ _ _ _ _ _ _ _ p d _ ?_ ?_ ?_ ?_
  · show V c main_v71 (((cfg5.win 0).blk t).view.emb (ix2 p d)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * d.val = d.val; omega
  · show V c main_v58 (((cfg5.win 1).blk t).view.emb (ix2 p d)) = _
    refine congrArg _ (funext fun a => Fin.ext ?_)
    match a with
    | ⟨0, _⟩ => show win5_1.index t (0 : Fin 2) * 5000 + 1 * p.val = t.val * 5000 + p.val; omega
    | ⟨1, _⟩ => show win5_1.index t (1 : Fin 2) * 128 + 1 * d.val = d.val; omega
  · show V c main_v12 (((cfg5.win 2).blk t).view.emb (ix2 p (0 : Fin 1))) = _
    refine congrArg _ (funext fun a => Fin.ext ?_)
    match a with
    | ⟨0, _⟩ => show win5_2.index t (0 : Fin 2) * 5000 + 1 * p.val = t.val * 5000 + p.val; omega
    | ⟨1, _⟩ => show win5_2.index t (1 : Fin 2) * 1 + 1 * 0 = 0; omega
  · show V c main_arg8 (((cfg5.win 3).blk t).view.emb (ix1 d)) = _
    refine congrArg _ (funext fun a => Fin.ext ?_)
    match a with
    | ⟨0, _⟩ => show win5_3.index t (0 : Fin 1) * 128 + 1 * d.val = d.val; omega

/-- An entry of the array lies in point t's block of the result exactly when each coordinate lies in the block's
    range on its axis. -/
private theorem mem_block_iff (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole (Pipeline.arrRef spec5 4)).slice (win5_4.rect t)).set ↔ _
  rw [View.set_slice_whole, Rect.mem_set_unit]
  exact Iff.rfl

/-- Every entry is written back by some point: row r lies in the block of point r / 5000. -/
private theorem rows_covered (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : (i 0).val / 5000 < cfg5.N := lt_of_lt_of_eq (by omega : (i 0).val / 5000 < 20) N_5.symm
  refine ⟨⟨(i 0).val / 5000, hN⟩, flush5_4 _, ?_⟩
  obtain ⟨-, -, -, -, -, -, -, e40, e41⟩ := block_indices ⟨(i 0).val / 5000, hN⟩
  rw [mem_block_iff]
  intro a
  match a with
  | ⟨0, _⟩ =>
    show win5_4.index _ (0 : Fin 2) * 5000 ≤ (i 0).val ∧ (i 0).val < win5_4.index _ (0 : Fin 2) * 5000 + 5000
    rw [e40]
    show (i 0).val / 5000 * 5000 ≤ (i 0).val ∧ (i 0).val < (i 0).val / 5000 * 5000 + 5000
    omega
  | ⟨1, _⟩ =>
    show win5_4.index _ (1 : Fin 2) * 128 ≤ (i 1).val ∧ (i 1).val < win5_4.index _ (1 : Fin 2) * 128 + 128
    rw [e41]
    omega

theorem final (c : Dev nD) :
    (dat5 (F := Ideal) V c).arrAt 4 cfg5.N
      = Cert.Gcn.combineCol (F := Ideal) (V c main_v12) (V c main_v71) (V c main_v58) (V c main_arg8) :=
  (dat5 (F := Ideal) V c).arrAt_eq_of_cover 4 _ (fun t _ => written_back V c t) rows_covered

end Cert.KernelIdeal.Mix5

end
-- ==== Proof.Pool6.lean ====
/-
  Region 6 of the kernel program: over 20 blocks of 5000 nodes it accumulates, for every graph number g, the sum of the
  node rows whose graph number is g (as a product with the 0/1 matrix [graph number of n = g]) and the count of such
  nodes (the column sums of that matrix), both cleared at the first block. The two arrays it leaves are the per-graph
  sums and counts over all 100000 nodes, whatever the buffers hold when the region is entered.
-/
import proofs.«412704_j34110630265034_1_alg».proof.Proof.Gen.KernelIdeal.Frame
import proofs.«412704_j34110630265034_1_alg».proof.Proof.PoolSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pool6

open Cert.KernelIdeal Cert.KernelIdeal.Gen
open Idealize.ShloMosaic Idealize.ShloMosaic.TcCoe Idealize.SL.Sem
open Idealize.ShloMosaic.Pipeline (Dat Cfg Window)
open Idealize.ShloMosaic.ValueIdx

section Pieces
variable {F : FTy → Type} [FloatOps F]

/-- The zero offsets of a rank-2 access, as the constant function. -/
private theorem hz : (![0, 0] : Fin 2 → Nat) = fun _ => 0 := funext fun a => by fin_cases a <;> rfl

/-- After a later block the carried sums are the update of what the block before left. -/
private theorem outB2 (c : Dev nD) (i : grid6.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond6_0 i)
    (x0 : Vec F S5000x128 .f32) (x1 : Vec F S5000x1 .i32) (xo2 : Vec F S128x128 .f32) (xo3 : Vec F S1x128 .f32) :
    out6_B_2 c i a1 h1 a2 h2 a3 h3 a4 h4 hc x0 x1 xo2 xo3 = k6_pay4 x0 x1 xo2 := by
  unfold out6_B_2
  rw [View.read_writes_eq_canon _ _ _ (cover6_B_2 c i a1 h1 a2 h2 a3 h3 a4 h4 hc x0 x1 xo2 xo3)]
  unfold kernelRun6_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S128x128) hz]

/-- After a later block the carried counts are the update of what the block before left. -/
private theorem outB3 (c : Dev nD) (i : grid6.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond6_0 i)
    (x0 : Vec F S5000x128 .f32) (x1 : Vec F S5000x1 .i32) (xo2 : Vec F S128x128 .f32) (xo3 : Vec F S1x128 .f32) :
    out6_B_3 c i a1 h1 a2 h2 a3 h3 a4 h4 hc x0 x1 xo2 xo3 = k6_pay5 x1 xo3 := by
  unfold out6_B_3
  rw [View.read_writes_eq_canon _ _ _ (cover6_B_3 c i a1 h1 a2 h2 a3 h3 a4 h4 hc x0 x1 xo2 xo3)]
  unfold kernelRun6_B
  dsimp only
  sl_unfold_words
  rw [View.canon_unit_zero hz]
  simp only [View.readAt_eq_ld, h2.read_unread, h4.read_unread,
    View.ld_unit_zero (S := S5000x1) hz, View.ld_unit_zero (S := S1x128) hz]

/-- After the first block the carried sums are the update of the zeros just stored. -/
private theorem outA2 (c : Dev nD) (i : grid6.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond6_0 i)
    (x0 : Vec F S5000x128 .f32) (x1 : Vec F S5000x1 .i32) :
    out6_A_2 c i a1 h1 a2 h2 a3 h3 a4 h4 hc x0 x1 = k6_pay4 x0 x1 k6_pay1 := by
  unfold out6_A_2
  rw [View.read_writes_eq_canon _ _ _ (cover6_A_2 c i a1 h1 a2 h2 a3 h3 a4 h4 hc x0 x1)]
  unfold kernelRun6_A
  dsimp only
  sl_unfold_words
  rw [View.canon_cons_unit_zero (S := S128x128) hz]
  simp only [View.readAt_eq_ld, h1.read_unread, h2.read_unread, View.ld_unit_zero (S := S5000x128) hz,
    View.ld_unit_zero (S := S5000x1) hz, View.readCov_unit_zero (S := S128x128) _ hz]

/-- After the first block the carried counts are the update of the zeros just stored. -/
private theorem outA3 (c : Dev nD) (i : grid6.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond6_0 i)
    (x0 : Vec F S5000x128 .f32) (x1 : Vec F S5000x1 .i32) :
    out6_A_3 c i a1 h1 a2 h2 a3 h3 a4 h4 hc x0 x1 = k6_pay5 x1 k6_pay2 := by
  unfold out6_A_3
  rw [View.read_writes_eq_canon _ _ _ (cover6_A_3 c i a1 h1 a2 h2 a3 h3 a4 h4 hc x0 x1)]
  unfold kernelRun6_A
  dsimp only
  sl_unfold_words
  rw [View.canon_cons_unit_zero (S := S1x128) hz]
  simp only [View.readAt_eq_ld, h2.read_unread,
    View.ld_unit_zero (S := S5000x1) hz, View.readCov_unit_zero (S := S1x128) _ hz]

end Pieces

section Payloads

/-- A column broadcast over the lanes reads, at (p, c), the column's entry p. -/
private theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 0/1 word "a = b", widened and read as a real, is the indicator of b = a. -/
private theorem sitofp_eq_word (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  by_cases h : b = a
  · subst h
    rw [if_pos rfl]
    have e : IntOp.cmpi .eq b b = 1#1 := by simp [IntOp.cmpi]
    rw [e]
    have e2 : ((1#1 : BitVec 1).setWidth 32).toInt = 1 := by decide
    rw [e2]; simp
  · rw [if_neg h]
    have e : IntOp.cmpi .eq a b = 0#1 := by
      have : (a == b) = false := by
        rw [beq_eq_false_iff_ne]; exact fun e => h e.symm
      simp [IntOp.cmpi, this]
    rw [e]
    have e2 : ((0#1 : BitVec 1).setWidth 32).toInt = 0 := by decide
    rw [e2]; simp

/-- The one-hot matrix at (r, g): 1 where the word of row r is g, else 0. -/
private theorem onehot_apply (v5 : Vec Ideal S5000x1 .i32) (r : Fin 5000) (g : Fin 128) :
    k6_pay3 (F := Ideal) v5 (ix2 r g) = if v5 (ix2 r (0 : Fin 1)) = BitVec.ofNat 32 g.val then (1 : EReal) else 0 := by
  unfold k6_pay3
  refine Eq.trans ?_ (sitofp_eq_word (BitVec.ofNat 32 g.val) (v5 (ix2 r (0 : Fin 1))))
  show FloatOps.sitofp (F := Ideal) .f32 ((IntOp.cmpi .eq (iota .tc S5000x128 32 [1] iota_S5000x128_d1_w32 (ix2 r g))
      (broadcastTo S5000x128 (shapeCast S5000x1 v5 shapeCasts_S5000x1_S5000x1) broadcasts_S5000x1_S5000x128 (ix2 r g))).setWidth 32) = _
  rw [iota_single_apply, bcastCol_apply, shapeCast_self]

private theorem lhs6_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
private theorem lhs6_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
private theorem rhs6_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
private theorem rhs6_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The product contracting the rows of two [5000,128] blocks, into zeros, at (g, d): the sum over the rows. -/
private theorem matmul6_apply (A B : FVec Ideal S5000x128 .bf16) (g d : Fin 128) :
    matmul dot_S5000x128_S5000x128_S128x128_0_0_1_1_n_n none A B (constant (F := Ideal) S128x128 .f32 0x00000000#32) (ix2 g d)
      = ∑ r : Fin 5000, A (ix2 r g) * B (ix2 r d) := by
  simp only [matmul]
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g d) ((contrEquiv1 dot_S5000x128_S5000x128_S128x128_0_0_1_1_n_n 5000 rfl rfl).symm k) = ix2 k g := funext fun a => Fin.ext (by
    match a with
    | ⟨0, _⟩ => exact (lhs6_0 _ _).trans hk
    | ⟨1, _⟩ => exact lhs6_1 _ _)
  have er : dot_S5000x128_S5000x128_S128x128_0_0_1_1_n_n.rhsIdx (ix2 g d) ((contrEquiv1 dot_S5000x128_S5000x128_S128x128_0_0_1_1_n_n 5000 rfl rfl).symm k) = ix2 k d := funext fun a => Fin.ext (by
    match a with
    | ⟨0, _⟩ => exact (rhs6_0 _ _).trans hk
    | ⟨1, _⟩ => exact rhs6_1 _ _)
  rw [el, er]

/-- The sums' update at (g, d): what was there plus the rows of the block whose word is g. -/
private theorem pay4_apply (x : Vec Ideal S5000x128 .f32) (bc : Vec Ideal S5000x1 .i32) (acc : Vec Ideal S128x128 .f32) (g d : Fin 128) :
    k6_pay4 (F := Ideal) x bc acc (ix2 g d)
      = acc (ix2 g d) + ∑ r : Fin 5000, if bc (ix2 r (0 : Fin 1)) = BitVec.ofNat 32 g.val then x (ix2 r d) else 0 := by
  unfold k6_pay4
  refine (addf_apply _ _ (ix2 g d)).trans ?_
  refine congrArg₂ (· + ·) (congrFun (shapeCast_self acc shapeCasts_S128x128_S128x128) (ix2 g d)) ?_
  refine (matmul6_apply _ _ g d).trans ?_
  refine Finset.sum_congr rfl fun r _ => ?_
  show k6_pay3 (F := Ideal) bc (ix2 r g) * shapeCast S5000x128 x shapeCasts_S5000x128_S5000x128 (ix2 r d) = _
  rw [onehot_apply, shapeCast_self]
  split
  · exact one_mul _
  · exact zero_mul _

/-- The lane sum over the rows of a [5000,128] block at lane g. -/
private theorem colsum_apply (src : FVec Ideal S5000x128 .f32) (hφ : FKind.Formats .f32)
    (hacc : (0x00000000#32 : BitVec 32) = FKind.add.neutral .f32 hφ) (g : Fin 128) :
    multiReduction (F := Ideal) .add [0] S128 src 0x00000000#32 reduces_S5000x128_S128 hφ hacc (ix1 g)
      = ∑ r : Fin 5000, src (ix2 r g) := by
  refine (Ideal.multiReduction_add_single src 0x00000000#32 reduces_S5000x128_S128 hφ hacc (ix1 g)).trans ?_
  refine Finset.sum_congr rfl fun r _ => congrArg src ?_
  funext a
  match a with
  | ⟨0, _⟩ => rfl
  | ⟨1, _⟩ => rfl

/-- The counts' update at (0, g): what was there plus the number of rows of the block whose word is g. -/
private theorem pay5_apply (bc : Vec Ideal S5000x1 .i32) (acc : Vec Ideal S1x128 .f32) (g : Fin 128) :
    k6_pay5 (F := Ideal) bc acc (ix2 (0 : Fin 1) g)
      = acc (ix2 (0 : Fin 1) g) + ∑ r : Fin 5000, if bc (ix2 r (0 : Fin 1)) = BitVec.ofNat 32 g.val then (1 : EReal) else 0 := by
  unfold k6_pay5
  refine (addf_apply _ _ (ix2 (0 : Fin 1) g)).trans ?_
  refine congrArg₂ (· + ·) (congrFun (shapeCast_self acc shapeCasts_S1x128_S1x128) (ix2 (0 : Fin 1) g)) ?_
  refine (shapeCast_a_1a_apply _ shapeCasts_S128_S1x128 (0 : Fin 1) g).trans ?_
  refine (colsum_apply _ _ _ g).trans ?_
  exact Finset.sum_congr rfl fun r _ => onehot_apply bc r g

/-- The zeros stored at the first block, read at an index. -/
private theorem pay1_apply (j : S128x128.Idx) : (k6_pay1 (F := Ideal)) j = 0 := Ideal.ofBits_zero_f32
private theorem pay2_apply (j : S1x128.Idx) : (k6_pay2 (F := Ideal)) j = 0 := Ideal.ofBits_zero_f32

end Payloads

variable (V : (c : Dev nD) → (b : Ref sig .tc) → Buf (Elt Ideal) ((c : Thread nD τ).loc b))

section Value

/-- The node features and the graph numbers as the region finds them, and their blocks at a point. -/
private abbrev xarr (c : Dev nD) : Vec Ideal S100000x128 .f32 := V c main_v72
private abbrev bcarr (c : Dev nD) : Vec Ideal S100000x1 .i32 := V c main_v73
private abbrev xblk (c : Dev nD) (t : Fin cfg6.N) : Vec Ideal S5000x128 .f32 := iblk6 V c 0 t
private abbrev bcblk (c : Dev nD) (t : Fin cfg6.N) : Vec Ideal S5000x1 .i32 := iblk6 V c 1 t

/-- Row r of the features' block t is node 5000 t + r. -/
private theorem xblk_apply (c : Dev nD) (t : Fin cfg6.N) (r : Fin 5000) (d : Fin 128) (h : 5000 * t.val + r.val < 100000) :
    xblk V c t (ix2 r d) = xarr V c (ix2 ⟨5000 * t.val + r.val, h⟩ d) := by
  have hi : win6_0.index t 0 = t.val ∧ win6_0.index t 1 = 0 :=
    (by decide +kernel : ∀ t : Fin grid6.N, win6_0.index t 0 = t.val ∧ win6_0.index t 1 = 0) t
  show iblk6 V c 0 t (ix2 r d) = _
  unfold iblk6
  rw [View.read_apply]
  show V c main_v72 _ = V c main_v72 _
  congr 1
  funext a
  apply Fin.ext
  match a with
  | ⟨0, _⟩ => show win6_0.index t 0 * 5000 + 1 * r.val = 5000 * t.val + r.val; rw [hi.1]; omega
  | ⟨1, _⟩ => show win6_0.index t 1 * 128 + 1 * d.val = d.val; rw [hi.2]; omega

/-- Row r of the graph numbers' block t is node 5000 t + r. -/
private theorem bcblk_apply (c : Dev nD) (t : Fin cfg6.N) (r : Fin 5000) (h : 5000 * t.val + r.val < 100000) :
    bcblk V c t (ix2 r (0 : Fin 1)) = bcarr V c (ix2 ⟨5000 * t.val + r.val, h⟩ (0 : Fin 1)) := by
  have hi : win6_1.index t 0 = t.val ∧ win6_1.index t 1 = 0 :=
    (by decide +kernel : ∀ t : Fin grid6.N, win6_1.index t 0 = t.val ∧ win6_1.index t 1 = 0) t
  show iblk6 V c 1 t (ix2 r (0 : Fin 1)) = _
  unfold iblk6
  rw [View.read_apply]
  show V c main_v73 _ = V c main_v73 _
  congr 1
  funext a
  apply Fin.ext
  match a with
  | ⟨0, _⟩ => show win6_1.index t 0 * 5000 + 1 * r.val = 5000 * t.val + r.val; rw [hi.1]; omega
  | ⟨1, _⟩ => show win6_1.index t 1 * 1 + 1 * 0 = 0; rw [hi.2]

/-- What node k adds to the sum of graph g at feature d (nothing past the last node). -/
private def term (c : Dev nD) (g d : Fin 128) (k : ℕ) : EReal :=
  if h : k < 100000 then
    (if bcarr V c (ix2 ⟨k, h⟩ (0 : Fin 1)) = BitVec.ofNat 32 g.val then xarr V c (ix2 ⟨k, h⟩ d) else 0)
  else 0

/-- What node k adds to the count of graph g. -/
private def cterm (c : Dev nD) (g : Fin 128) (k : ℕ) : EReal :=
  if h : k < 100000 then
    (if bcarr V c (ix2 ⟨k, h⟩ (0 : Fin 1)) = BitVec.ofNat 32 g.val then (1 : EReal) else 0)
  else 0

/-- The rows of block t with graph number g, summed: nodes 5000 t … 5000 t + 4999. -/
private theorem blocksum (c : Dev nD) (t : Fin cfg6.N) (g d : Fin 128) :
    (∑ r : Fin 5000, if bcblk V c t (ix2 r (0 : Fin 1)) = BitVec.ofNat 32 g.val then xblk V c t (ix2 r d) else 0)
      = ∑ r ∈ Finset.range 5000, term V c g d (5000 * t.val + r) := by
  have hN : t.val < 20 := lt_of_lt_of_eq t.isLt (show cfg6.N = 20 from N_6)
  rw [Finset.sum_range]
  refine Finset.sum_congr rfl fun r _ => ?_
  have h : 5000 * t.val + r.val < 100000 := by have := r.isLt; omega
  unfold term
  rw [dif_pos h, xblk_apply V c t r d h, bcblk_apply V c t r h]

private theorem blockcount (c : Dev nD) (t : Fin cfg6.N) (g : Fin 128) :
    (∑ r : Fin 5000, if bcblk V c t (ix2 r (0 : Fin 1)) = BitVec.ofNat 32 g.val then (1 : EReal) else 0)
      = ∑ r ∈ Finset.range 5000, cterm V c g (5000 * t.val + r) := by
  have hN : t.val < 20 := lt_of_lt_of_eq t.isLt (show cfg6.N = 20 from N_6)
  rw [Finset.sum_range]
  refine Finset.sum_congr rfl fun r _ => ?_
  have h : 5000 * t.val + r.val < 100000 := by have := r.isLt; omega
  unfold cterm
  rw [dif_pos h, bcblk_apply V c t r h]

/-- At the first block the sums are the block's own. -/
private theorem sums_A (c : Dev nD) (t : Fin cfg6.N) (h0 : t.val % 20 = 0) (g d : Fin 128) :
    (outsAt6 V c t.val t.isLt).1 (ix2 g d)
      = ∑ r : Fin 5000, if bcblk V c t (ix2 r (0 : Fin 1)) = BitVec.ofNat 32 g.val then xblk V c t (ix2 r d) else 0 := by
  rw [outsAt6_A V c t h0]
  dsimp only
  refine (congrFun (outA2 (F := Ideal) c (grid6.coords t) (ms6_0 t) (hs6_0 t) (ms6_1 t) (hs6_1 t) (ms6_2 t) (hs6_2 t)
    (ms6_3 t) (hs6_3 t) ((hcond6_0 t).mpr h0) (iblk6 V c 0 t) (iblk6 V c 1 t)) (ix2 g d)).trans ?_
  refine (pay4_apply (xblk V c t) (bcblk V c t) (k6_pay1 (F := Ideal)) g d).trans ?_
  rw [pay1_apply, zero_add]

/-- At a later block they gain the block's. -/
private theorem sums_B (c : Dev nD) (t : Fin cfg6.N) (h0 : ¬t.val % 20 = 0) (g d : Fin 128) :
    (outsAt6 V c t.val t.isLt).1 (ix2 g d)
      = (outsAt6 V c (t.val - 1) (Nat.lt_of_le_of_lt (Nat.sub_le _ _) t.isLt)).1 (ix2 g d)
        + ∑ r : Fin 5000, if bcblk V c t (ix2 r (0 : Fin 1)) = BitVec.ofNat 32 g.val then xblk V c t (ix2 r d) else 0 := by
  rw [outsAt6_B V c t h0]
  dsimp only
  refine (congrFun (outB2 (F := Ideal) c (grid6.coords t) (ms6_0 t) (hs6_0 t) (ms6_1 t) (hs6_1 t) (ms6_2 t) (hs6_2 t)
    (ms6_3 t) (hs6_3 t) (fun h => h0 ((hcond6_0 t).mp h)) (iblk6 V c 0 t) (iblk6 V c 1 t)
    (outsAt6 V c (t.val - 1) (Nat.lt_of_le_of_lt (Nat.sub_le _ _) t.isLt)).1
    (outsAt6 V c (t.val - 1) (Nat.lt_of_le_of_lt (Nat.sub_le _ _) t.isLt)).2) (ix2 g d)).trans ?_
  exact pay4_apply (xblk V c t) (bcblk V c t) (outsAt6 V c (t.val - 1) (Nat.lt_of_le_of_lt (Nat.sub_le _ _) t.isLt)).1 g d

private theorem counts_A (c : Dev nD) (t : Fin cfg6.N) (h0 : t.val % 20 = 0) (g : Fin 128) :
    (outsAt6 V c t.val t.isLt).2 (ix2 (0 : Fin 1) g)
      = ∑ r : Fin 5000, if bcblk V c t (ix2 r (0 : Fin 1)) = BitVec.ofNat 32 g.val then (1 : EReal) else 0 := by
  rw [outsAt6_A V c t h0]
  dsimp only
  refine (congrFun (outA3 (F := Ideal) c (grid6.coords t) (ms6_0 t) (hs6_0 t) (ms6_1 t) (hs6_1 t) (ms6_2 t) (hs6_2 t)
    (ms6_3 t) (hs6_3 t) ((hcond6_0 t).mpr h0) (iblk6 V c 0 t) (iblk6 V c 1 t)) (ix2 (0 : Fin 1) g)).trans ?_
  refine (pay5_apply (bcblk V c t) (k6_pay2 (F := Ideal)) g).trans ?_
  rw [pay2_apply, zero_add]

private theorem counts_B (c : Dev nD) (t : Fin cfg6.N) (h0 : ¬t.val % 20 = 0) (g : Fin 128) :
    (outsAt6 V c t.val t.isLt).2 (ix2 (0 : Fin 1) g)
      = (outsAt6 V c (t.val - 1) (Nat.lt_of_le_of_lt (Nat.sub_le _ _) t.isLt)).2 (ix2 (0 : Fin 1) g)
        + ∑ r : Fin 5000, if bcblk V c t (ix2 r (0 : Fin 1)) = BitVec.ofNat 32 g.val then (1 : EReal) else 0 := by
  rw [outsAt6_B V c t h0]
  dsimp only
  refine (congrFun (outB3 (F := Ideal) c (grid6.coords t) (ms6_0 t) (hs6_0 t) (ms6_1 t) (hs6_1 t) (ms6_2 t) (hs6_2 t)
    (ms6_3 t) (hs6_3 t) (fun h => h0 ((hcond6_0 t).mp h)) (iblk6 V c 0 t) (iblk6 V c 1 t)
    (outsAt6 V c (t.val - 1) (Nat.lt_of_le_of_lt (Nat.sub_le _ _) t.isLt)).1
    (outsAt6 V c (t.val - 1) (Nat.lt_of_le_of_lt (Nat.sub_le _ _) t.isLt)).2) (ix2 (0 : Fin 1) g)).trans ?_
  exact pay5_apply (bcblk V c t) (outsAt6 V c (t.val - 1) (Nat.lt_of_le_of_lt (Nat.sub_le _ _) t.isLt)).2 g

/-- After block n the carried sums hold the nodes below 5000 (n + 1). -/
private theorem sums_inv (c : Dev nD) (g d : Fin 128) : ∀ (n : ℕ) (hn : n < cfg6.N),
    (outsAt6 V c n hn).1 (ix2 g d) = ∑ k ∈ Finset.range (5000 * (n + 1)), term V c g d k
  | 0, hn => by
    refine (sums_A V c ⟨0, hn⟩ rfl g d).trans ?_
    rw [blocksum V c ⟨0, hn⟩ g d]
    refine Finset.sum_congr rfl fun r _ => ?_
    show term V c g d (5000 * 0 + r) = _
    rw [Nat.mul_zero, Nat.zero_add]
  | n + 1, hn => by
    have hN : cfg6.N = 20 := N_6
    have hB : ¬(⟨n + 1, hn⟩ : Fin cfg6.N).val % 20 = 0 := by dsimp only; omega
    refine (sums_B V c ⟨n + 1, hn⟩ hB g d).trans ?_
    show (outsAt6 V c n _).1 (ix2 g d) + _ = _
    rw [sums_inv c g d n, blocksum V c ⟨n + 1, hn⟩ g d, show 5000 * (n + 1 + 1) = 5000 * (n + 1) + 5000 from by omega,
      Finset.sum_range_add]

private theorem counts_inv (c : Dev nD) (g : Fin 128) : ∀ (n : ℕ) (hn : n < cfg6.N),
    (outsAt6 V c n hn).2 (ix2 (0 : Fin 1) g) = ∑ k ∈ Finset.range (5000 * (n + 1)), cterm V c g k
  | 0, hn => by
    refine (counts_A V c ⟨0, hn⟩ rfl g).trans ?_
    rw [blockcount V c ⟨0, hn⟩ g]
    refine Finset.sum_congr rfl fun r _ => ?_
    show cterm V c g (5000 * 0 + r) = _
    rw [Nat.mul_zero, Nat.zero_add]
  | n + 1, hn => by
    have hN : cfg6.N = 20 := N_6
    have hB : ¬(⟨n + 1, hn⟩ : Fin cfg6.N).val % 20 = 0 := by dsimp only; omega
    refine (counts_B V c ⟨n + 1, hn⟩ hB g).trans ?_
    show (outsAt6 V c n _).2 (ix2 (0 : Fin 1) g) + _ = _
    rw [counts_inv c g n, blockcount V c ⟨n + 1, hn⟩ g, show 5000 * (n + 1 + 1) = 5000 * (n + 1) + 5000 from by omega,
      Finset.sum_range_add]

end Value

section Final

/-- The last block's point, the only one after which the two outputs are written back. -/
private abbrev tLast : Fin cfg6.N := ⟨19, by rw [show cfg6.N = 20 from N_6]; decide⟩

/-- What the two arrays end holding: the carried blocks after the last point. -/
private abbrev sumsG (c : Dev nD) : Buf (Elt Ideal) ((c : Thread nD τ).loc main_v74_0) := (outsAt6 V c 19 tLast.isLt).1
private abbrev countsG (c : Dev nD) : Buf (Elt Ideal) ((c : Thread nD τ).loc main_v74_1) := (outsAt6 V c 19 tLast.isLt).2

/-- The one write-back of the sums writes the carried block, which is the whole array. -/
private theorem flushed2_eq (c : Dev nD) (t : Fin cfg6.N) (hf : (cfg6.win 2).flush t = true) :
    (dat6 V c).flushed 2 t = ((cfg6.win 2).blk t).view.read (Elt Ideal) (sumsG V c) := by
  have hN : cfg6.N = 20 := N_6
  have h3 : t.val = 19 := by have := (flush6_2 t).mp hf; have := t.isLt; omega
  obtain rfl : t = tLast := Fin.ext h3
  show (cfg6.win 2).cut (grid6.coords tLast) ((dat6 V c).after 2 tLast) = _
  rw [after6_2]
  have hz' : (fun a => win6_2.index tLast a * main_v74_0.ty.shape.size a) = fun _ => 0 :=
    funext fun a => by fin_cases a <;> decide +kernel
  exact (Memref.read_access_unit_zero (Elt Ideal) main_v74_0 hz' (fun a => by rw [congrFun hz' a]; simp) (sumsG V c)).symm

private theorem flushed3_eq (c : Dev nD) (t : Fin cfg6.N) (hf : (cfg6.win 3).flush t = true) :
    (dat6 V c).flushed 3 t = ((cfg6.win 3).blk t).view.read (Elt Ideal) (countsG V c) := by
  have hN : cfg6.N = 20 := N_6
  have h3 : t.val = 19 := by have := (flush6_3 t).mp hf; have := t.isLt; omega
  obtain rfl : t = tLast := Fin.ext h3
  show (cfg6.win 3).cut (grid6.coords tLast) ((dat6 V c).after 3 tLast) = _
  rw [after6_3]
  have hz' : (fun a => win6_3.index tLast a * main_v74_1.ty.shape.size a) = fun _ => 0 :=
    funext fun a => by fin_cases a <;> decide +kernel
  exact (Memref.read_access_unit_zero (Elt Ideal) main_v74_1 hz' (fun a => by rw [congrFun hz' a]; simp) (countsG V c)).symm

/-- Every entry of the sums' array lies in the block written back after the last point. -/
private theorem cover2 (i : S128x128.Idx) : ∃ t : Fin cfg6.N, (cfg6.win 2).flush t = true ∧ i ∈ ((cfg6.win 2).blk t).view.set := by
  have h0 : (i 0 : Nat) < 128 := (i 0).isLt
  have h1 : (i 1 : Nat) < 128 := (i 1).isLt
  refine ⟨tLast, (flush6_2 tLast).mpr rfl, ?_⟩
  show i ∈ ((View.whole main_v74_0).slice (win6_2.rect tLast)).set
  rw [View.set_slice_whole, Rect.mem_set_unit]
  intro a
  match a with
  | ⟨0, _⟩ =>
    show win6_2.index tLast 0 * win6_2.size 0 ≤ (i 0 : Nat) ∧ (i 0 : Nat) < win6_2.index tLast 0 * win6_2.size 0 + win6_2.xsize (grid6.coords tLast) 0
    rw [show win6_2.index tLast 0 * win6_2.size 0 = 0 from by decide +kernel, show win6_2.xsize (grid6.coords tLast) 0 = 128 from by decide +kernel]; omega
  | ⟨1, _⟩ =>
    show win6_2.index tLast 1 * win6_2.size 1 ≤ (i 1 : Nat) ∧ (i 1 : Nat) < win6_2.index tLast 1 * win6_2.size 1 + win6_2.xsize (grid6.coords tLast) 1
    rw [show win6_2.index tLast 1 * win6_2.size 1 = 0 from by decide +kernel, show win6_2.xsize (grid6.coords tLast) 1 = 128 from by decide +kernel]; omega

private theorem cover3 (i : S1x128.Idx) : ∃ t : Fin cfg6.N, (cfg6.win 3).flush t = true ∧ i ∈ ((cfg6.win 3).blk t).view.set := by
  have h0 : (i 0 : Nat) < 1 := (i 0).isLt
  have h1 : (i 1 : Nat) < 128 := (i 1).isLt
  refine ⟨tLast, (flush6_3 tLast).mpr rfl, ?_⟩
  show i ∈ ((View.whole main_v74_1).slice (win6_3.rect tLast)).set
  rw [View.set_slice_whole, Rect.mem_set_unit]
  intro a
  match a with
  | ⟨0, _⟩ =>
    show win6_3.index tLast 0 * win6_3.size 0 ≤ (i 0 : Nat) ∧ (i 0 : Nat) < win6_3.index tLast 0 * win6_3.size 0 + win6_3.xsize (grid6.coords tLast) 0
    rw [show win6_3.index tLast 0 * win6_3.size 0 = 0 from by decide +kernel, show win6_3.xsize (grid6.coords tLast) 0 = 1 from by decide +kernel]; omega
  | ⟨1, _⟩ =>
    show win6_3.index tLast 1 * win6_3.size 1 ≤ (i 1 : Nat) ∧ (i 1 : Nat) < win6_3.index tLast 1 * win6_3.size 1 + win6_3.xsize (grid6.coords tLast) 1
    rw [show win6_3.index tLast 1 * win6_3.size 1 = 0 from by decide +kernel, show win6_3.xsize (grid6.coords tLast) 1 = 128 from by decide +kernel]; omega

/-- So the two arrays end holding the carried blocks after the last point. -/
private theorem final2 (c : Dev nD) : (dat6 V c).arrAt 2 cfg6.N = sumsG V c :=
  (dat6 V c).arrAt_eq_of_cover 2 (sumsG V c) (flushed2_eq V c) cover2
private theorem final3 (c : Dev nD) : (dat6 V c).arrAt 3 cfg6.N = countsG V c :=
  (dat6 V c).arrAt_eq_of_cover 3 (countsG V c) (flushed3_eq V c) cover3

theorem sums (c : Dev nD) (g d : Fin 128) :
    (dat6 (F := Ideal) V c).arrAt 2 cfg6.N (ix2 g d) = Cert.Gcn.poolSumAt (V c main_v73) (V c main_v72) g d := by
  refine (congrFun (final2 V c) (ix2 g d)).trans ?_
  refine (sums_inv V c g d 19 tLast.isLt).trans ?_
  show ∑ k ∈ Finset.range 100000, term V c g d k = _
  unfold Cert.Gcn.poolSumAt
  rw [Finset.sum_range]
  refine Finset.sum_congr rfl fun n _ => ?_
  unfold term
  rw [dif_pos n.isLt]

theorem counts (c : Dev nD) (g : Fin 128) :
    (dat6 (F := Ideal) V c).arrAt 3 cfg6.N (ix2 (0 : Fin 1) g) = Cert.Gcn.poolCountAt (V c main_v73) g := by
  refine (congrFun (final3 V c) (ix2 (0 : Fin 1) g)).trans ?_
  refine (counts_inv V c g 19 tLast.isLt).trans ?_
  show ∑ k ∈ Finset.range 100000, cterm V c g k = _
  unfold Cert.Gcn.poolCountAt
  rw [Finset.sum_range]
  refine Finset.sum_congr rfl fun n _ => ?_
  unfold cterm
  rw [dif_pos n.isLt]

end Final

end Cert.KernelIdeal.Pool6

end
-- ==== Proof.Chain.lean ====
/-
  The kernel program's result, read through its host stretches and its seven regions from the launch memory, is the
  network `Cert.Gcn.model` of the launch arguments: the three dense regions leave x W, the three pointwise regions
  a + dinv² ⊙ h + b (rectified in the first two layers), the pooling region the per-graph sums and counts, and every
  host stretch applies the operations the shared functions are made of.

  The proof walks the thirteen boundaries between segments in order. At each it records what the buffers that a
  later segment still reads hold, as a function of the launch arguments: a buffer nothing has written since keeps
  its contents; a host stretch's result is its operations applied to the recorded contents; a region's output is
  the region's closed form of its recorded inputs.
-/
import proofs.«412704_j34110630265034_1_alg».proof.Proof.Gen.KernelIdeal.Frame
import proofs.«412704_j34110630265034_1_alg».proof.Proof.Gcn
import proofs.«412704_j34110630265034_1_alg».proof.Proof.PoolLaw
import proofs.«412704_j34110630265034_1_alg».proof.Proof.Dense0
import proofs.«412704_j34110630265034_1_alg».proof.Proof.Dense2
import proofs.«412704_j34110630265034_1_alg».proof.Proof.Dense4
import proofs.«412704_j34110630265034_1_alg».proof.Proof.Mix1
import proofs.«412704_j34110630265034_1_alg».proof.Proof.Mix3
import proofs.«412704_j34110630265034_1_alg».proof.Proof.Mix5
import proofs.«412704_j34110630265034_1_alg».proof.Proof.Pool6
import Idealize.ShloMosaic.Lib.StableHlo.Run
import Idealize.ShloMosaic.Lib.ValueIdx
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)
open Idealize.ShloMosaic.StableHlo Idealize.ShloMosaic.ValueIdx

/-! ## A column written as a reshape or as a broadcast -/

/-- Reshaping a length-100000 array to one column is repeating it along a new last axis of size one. -/
theorem reshape_col {t : EltTy} (v : (⟨S100000, t⟩ : BufTy).Contents (Elt Ideal)) :
    shapeCast S100000x1 v shapeCasts_S100000_S100000x1 = Cert.Gcn.nodeCol (F := Ideal) v := by
  funext j
  have hj1 : (j 1).val = 0 := by have h := (j 1).isLt; exact Nat.lt_one_iff.mp h
  unfold Cert.Gcn.nodeCol
  rw [shapeCast_apply v shapeCasts_S100000_S100000x1 j (ix1 ⟨(j 0).val, (j 0).isLt⟩)
      (by rw [Shape.rowMajor_val_one, Shape.rowMajor_val_two]; show (j 0).val = (j 0).val * 1 + (j 1).val; omega),
    broadcastInDim_apply ![0] Cert.ReferenceIdeal.Gen.bcast_S100000_S100000x1_0 v j (ix1 ⟨(j 0).val, (j 0).isLt⟩)
      (fun a => match a with
        | ⟨0, _⟩ => by show (j 0).val = if (100000 : Nat) = 1 then 0 else (j 0).val; rw [if_neg (by decide)])]

/-- Reading a one-row array of 128 entries as a plain array of 128 entries: entry g is entry (0, g). -/
theorem row_apply (v : (⟨S1x128, .f32⟩ : BufTy).Contents (Elt Ideal)) (g : Fin 128) :
    shapeCast S128 v shapeCasts_S1x128_S128 (ix1 g) = v (ix2 (0 : Fin 1) g) :=
  shapeCast_apply v shapeCasts_S1x128_S128 (ix1 g) (ix2 (0 : Fin 1) g)
    (by rw [Shape.rowMajor_val_one, Shape.rowMajor_val_two]; show 0 * 128 + g.val = g.val; omega)

variable (m : (ℓ : Loc nD τ sig) → Buf (Elt Ideal) ℓ) (ρ : Dev nD → PrngReg) (c : Dev nD)

/-- The edge list at launch. -/
abbrev edges := (m ((c : Thread nD τ).loc main_arg1))
/-- The node features after the first layer and its rectifier. -/
abbrev x1 := Cert.Gcn.relu (F := Ideal) (Cert.Gcn.conv (edges m c) (m ((c : Thread nD τ).loc main_arg0)) (m ((c : Thread nD τ).loc main_arg3)) (m ((c : Thread nD τ).loc main_arg4)))
/-- The node features after the second layer and its rectifier. -/
abbrev x2 := Cert.Gcn.relu (F := Ideal) (Cert.Gcn.conv (edges m c) (x1 m c) (m ((c : Thread nD τ).loc main_arg5)) (m ((c : Thread nD τ).loc main_arg6)))

local notation "r" => Proc.devRef (τ := τ) (sig := sig) Proc.tc

/-! ## Boundary 1: after the first host stretch (the graph quantities) -/

set_option maxHeartbeats 4000000 in
theorem at1 :
    W1 (F := Ideal) m ρ c (r main_v1) = Cert.Gcn.src (edges m c)
    ∧ W1 (F := Ideal) m ρ c (r main_v3) = Cert.Gcn.dst (edges m c)
    ∧ W1 (F := Ideal) m ρ c (r main_v12) = Cert.Gcn.selfCol (edges m c)
    ∧ W1 (F := Ideal) m ρ c (r main_v27) = Cert.Gcn.norm (edges m c)
    ∧ W1 (F := Ideal) m ρ c (r main_arg0) = (m ((c : Thread nD τ).loc main_arg0))
    ∧ W1 (F := Ideal) m ρ c (r main_arg2) = (m ((c : Thread nD τ).loc main_arg2))
    ∧ W1 (F := Ideal) m ρ c (r main_arg3) = (m ((c : Thread nD τ).loc main_arg3))
    ∧ W1 (F := Ideal) m ρ c (r main_arg4) = (m ((c : Thread nD τ).loc main_arg4))
    ∧ W1 (F := Ideal) m ρ c (r main_arg5) = (m ((c : Thread nD τ).loc main_arg5))
    ∧ W1 (F := Ideal) m ρ c (r main_arg6) = (m ((c : Thread nD τ).loc main_arg6))
    ∧ W1 (F := Ideal) m ρ c (r main_arg7) = (m ((c : Thread nD τ).loc main_arg7))
    ∧ W1 (F := Ideal) m ρ c (r main_arg8) = (m ((c : Thread nD τ).loc main_arg8))
    ∧ W1 (F := Ideal) m ρ c (r main_arg9) = (m ((c : Thread nD τ).loc main_arg9))
    ∧ W1 (F := Ideal) m ρ c (r main_arg10) = (m ((c : Thread nD τ).loc main_arg10)) := by
  refine ⟨?_, ?_, ?_, ?_, ?_, ?_, ?_, ?_, ?_, ?_, ?_, ?_, ?_, ?_⟩
  · show StableHlo.after hostOps0 (W0 m ρ c) (r main_v1) = _
    after_results_simp; rfl
  · show StableHlo.after hostOps0 (W0 m ρ c) (r main_v3) = _
    after_results_simp; rfl
  · show StableHlo.after hostOps0 (W0 m ρ c) (r main_v12) = _
    after_results_simp
    exact reshape_col _
  · show StableHlo.after hostOps0 (W0 m ρ c) (r main_v27) = _
    after_results_simp; rfl
  · show StableHlo.after hostOps0 (W0 m ρ c) (r main_arg0) = _
    after_results_simp
  · show StableHlo.after hostOps0 (W0 m ρ c) (r main_arg2) = _
    after_results_simp
  · show StableHlo.after hostOps0 (W0 m ρ c) (r main_arg3) = _
    after_results_simp
  · show StableHlo.after hostOps0 (W0 m ρ c) (r main_arg4) = _
    after_results_simp
  · show StableHlo.after hostOps0 (W0 m ρ c) (r main_arg5) = _
    after_results_simp
  · show StableHlo.after hostOps0 (W0 m ρ c) (r main_arg6) = _
    after_results_simp
  · show StableHlo.after hostOps0 (W0 m ρ c) (r main_arg7) = _
    after_results_simp
  · show StableHlo.after hostOps0 (W0 m ρ c) (r main_arg8) = _
    after_results_simp
  · show StableHlo.after hostOps0 (W0 m ρ c) (r main_arg9) = _
    after_results_simp
  · show StableHlo.after hostOps0 (W0 m ρ c) (r main_arg10) = _
    after_results_simp

/-! ## Boundary 2: after region 0 (the first layer's dense product) -/

theorem at2 :
    W2 (F := Ideal) m ρ c (r main_v1) = Cert.Gcn.src (edges m c)
    ∧ W2 (F := Ideal) m ρ c (r main_v3) = Cert.Gcn.dst (edges m c)
    ∧ W2 (F := Ideal) m ρ c (r main_v12) = Cert.Gcn.selfCol (edges m c)
    ∧ W2 (F := Ideal) m ρ c (r main_v27) = Cert.Gcn.norm (edges m c)
    ∧ W2 (F := Ideal) m ρ c (r main_arg2) = (m ((c : Thread nD τ).loc main_arg2))
    ∧ W2 (F := Ideal) m ρ c (r main_arg4) = (m ((c : Thread nD τ).loc main_arg4))
    ∧ W2 (F := Ideal) m ρ c (r main_arg5) = (m ((c : Thread nD τ).loc main_arg5))
    ∧ W2 (F := Ideal) m ρ c (r main_arg6) = (m ((c : Thread nD τ).loc main_arg6))
    ∧ W2 (F := Ideal) m ρ c (r main_arg7) = (m ((c : Thread nD τ).loc main_arg7))
    ∧ W2 (F := Ideal) m ρ c (r main_arg8) = (m ((c : Thread nD τ).loc main_arg8))
    ∧ W2 (F := Ideal) m ρ c (r main_arg9) = (m ((c : Thread nD τ).loc main_arg9))
    ∧ W2 (F := Ideal) m ρ c (r main_arg10) = (m ((c : Thread nD τ).loc main_arg10))
    ∧ W2 (F := Ideal) m ρ c (r main_v28) = Cert.Gcn.lin (F := Ideal) (m ((c : Thread nD τ).loc main_arg0)) (m ((c : Thread nD τ).loc main_arg3)) := by
  obtain ⟨h_v1, h_v3, h_v12, h_v27, h_arg0, h_arg2, h_arg3, h_arg4, h_arg5, h_arg6, h_arg7, h_arg8, h_arg9, h_arg10⟩ := at1 m ρ c
  exact ⟨(W2_of_ne (F := Ideal) m ρ c main_v1 (by decide)).trans h_v1,
    (W2_of_ne (F := Ideal) m ρ c main_v3 (by decide)).trans h_v3,
    (W2_of_ne (F := Ideal) m ρ c main_v12 (by decide)).trans h_v12,
    (W2_of_ne (F := Ideal) m ρ c main_v27 (by decide)).trans h_v27,
    (W2_of_ne (F := Ideal) m ρ c main_arg2 (by decide)).trans h_arg2,
    (W2_of_ne (F := Ideal) m ρ c main_arg4 (by decide)).trans h_arg4,
    (W2_of_ne (F := Ideal) m ρ c main_arg5 (by decide)).trans h_arg5,
    (W2_of_ne (F := Ideal) m ρ c main_arg6 (by decide)).trans h_arg6,
    (W2_of_ne (F := Ideal) m ρ c main_arg7 (by decide)).trans h_arg7,
    (W2_of_ne (F := Ideal) m ρ c main_arg8 (by decide)).trans h_arg8,
    (W2_of_ne (F := Ideal) m ρ c main_arg9 (by decide)).trans h_arg9,
    (W2_of_ne (F := Ideal) m ρ c main_arg10 (by decide)).trans h_arg10,
    (W2_arr (F := Ideal) m ρ c 2).trans ((Cert.KernelIdeal.Dense0.final (V1 m ρ) c).trans (by
      rw [show V1 (F := Ideal) m ρ c main_arg0 = _ from h_arg0, show V1 (F := Ideal) m ρ c main_arg3 = _ from h_arg3]))⟩

/-! ## Boundary 3: after the second host stretch (the first layer's neighbour sum) -/

theorem at3 :
    W3 (F := Ideal) m ρ c (r main_v1) = Cert.Gcn.src (edges m c)
    ∧ W3 (F := Ideal) m ρ c (r main_v3) = Cert.Gcn.dst (edges m c)
    ∧ W3 (F := Ideal) m ρ c (r main_v12) = Cert.Gcn.selfCol (edges m c)
    ∧ W3 (F := Ideal) m ρ c (r main_v27) = Cert.Gcn.norm (edges m c)
    ∧ W3 (F := Ideal) m ρ c (r main_arg2) = (m ((c : Thread nD τ).loc main_arg2))
    ∧ W3 (F := Ideal) m ρ c (r main_arg4) = (m ((c : Thread nD τ).loc main_arg4))
    ∧ W3 (F := Ideal) m ρ c (r main_arg5) = (m ((c : Thread nD τ).loc main_arg5))
    ∧ W3 (F := Ideal) m ρ c (r main_arg6) = (m ((c : Thread nD τ).loc main_arg6))
    ∧ W3 (F := Ideal) m ρ c (r main_arg7) = (m ((c : Thread nD τ).loc main_arg7))
    ∧ W3 (F := Ideal) m ρ c (r main_arg8) = (m ((c : Thread nD τ).loc main_arg8))
    ∧ W3 (F := Ideal) m ρ c (r main_arg9) = (m ((c : Thread nD τ).loc main_arg9))
    ∧ W3 (F := Ideal) m ρ c (r main_arg10) = (m ((c : Thread nD τ).loc main_arg10))
    ∧ W3 (F := Ideal) m ρ c (r main_v28) = Cert.Gcn.lin (F := Ideal) (m ((c : Thread nD τ).loc main_arg0)) (m ((c : Thread nD τ).loc main_arg3))
    ∧ W3 (F := Ideal) m ρ c (r main_v41) = Cert.Gcn.agg (F := Ideal) (Cert.Gcn.norm (edges m c)) (Cert.Gcn.src (edges m c)) (Cert.Gcn.dst (edges m c)) (Cert.Gcn.lin (F := Ideal) (m ((c : Thread nD τ).loc main_arg0)) (m ((c : Thread nD τ).loc main_arg3))) := by
  obtain ⟨h_v1, h_v3, h_v12, h_v27, h_arg2, h_arg4, h_arg5, h_arg6, h_arg7, h_arg8, h_arg9, h_arg10, h_v28⟩ := at2 m ρ c
  exact ⟨(show StableHlo.after hostOps1 (W2 (F := Ideal) m ρ c) (r main_v1) = W2 (F := Ideal) m ρ c (r main_v1) by after_results_simp).trans h_v1,
    (show StableHlo.after hostOps1 (W2 (F := Ideal) m ρ c) (r main_v3) = W2 (F := Ideal) m ρ c (r main_v3) by after_results_simp).trans h_v3,
    (show StableHlo.after hostOps1 (W2 (F := Ideal) m ρ c) (r main_v12) = W2 (F := Ideal) m ρ c (r main_v12) by after_results_simp).trans h_v12,
    (show StableHlo.after hostOps1 (W2 (F := Ideal) m ρ c) (r main_v27) = W2 (F := Ideal) m ρ c (r main_v27) by after_results_simp).trans h_v27,
    (show StableHlo.after hostOps1 (W2 (F := Ideal) m ρ c) (r main_arg2) = W2 (F := Ideal) m ρ c (r main_arg2) by after_results_simp).trans h_arg2,
    (show StableHlo.after hostOps1 (W2 (F := Ideal) m ρ c) (r main_arg4) = W2 (F := Ideal) m ρ c (r main_arg4) by after_results_simp).trans h_arg4,
    (show StableHlo.after hostOps1 (W2 (F := Ideal) m ρ c) (r main_arg5) = W2 (F := Ideal) m ρ c (r main_arg5) by after_results_simp).trans h_arg5,
    (show StableHlo.after hostOps1 (W2 (F := Ideal) m ρ c) (r main_arg6) = W2 (F := Ideal) m ρ c (r main_arg6) by after_results_simp).trans h_arg6,
    (show StableHlo.after hostOps1 (W2 (F := Ideal) m ρ c) (r main_arg7) = W2 (F := Ideal) m ρ c (r main_arg7) by after_results_simp).trans h_arg7,
    (show StableHlo.after hostOps1 (W2 (F := Ideal) m ρ c) (r main_arg8) = W2 (F := Ideal) m ρ c (r main_arg8) by after_results_simp).trans h_arg8,
    (show StableHlo.after hostOps1 (W2 (F := Ideal) m ρ c) (r main_arg9) = W2 (F := Ideal) m ρ c (r main_arg9) by after_results_simp).trans h_arg9,
    (show StableHlo.after hostOps1 (W2 (F := Ideal) m ρ c) (r main_arg10) = W2 (F := Ideal) m ρ c (r main_arg10) by after_results_simp).trans h_arg10,
    (show StableHlo.after hostOps1 (W2 (F := Ideal) m ρ c) (r main_v28) = W2 (F := Ideal) m ρ c (r main_v28) by after_results_simp).trans h_v28,
    ((show StableHlo.after hostOps1 (W2 (F := Ideal) m ρ c) (r main_v41) = Cert.Gcn.agg (F := Ideal) (W2 (F := Ideal) m ρ c (r main_v27)) (W2 (F := Ideal) m ρ c (r main_v1)) (W2 (F := Ideal) m ρ c (r main_v3)) (W2 (F := Ideal) m ρ c (r main_v28)) by
        after_results_simp; rfl).trans (by rw [h_v27, h_v1, h_v3, h_v28]))⟩

/-! ## Boundary 4: after region 1 (the first layer combined and rectified) -/

theorem at4 :
    W4 (F := Ideal) m ρ c (r main_v1) = Cert.Gcn.src (edges m c)
    ∧ W4 (F := Ideal) m ρ c (r main_v3) = Cert.Gcn.dst (edges m c)
    ∧ W4 (F := Ideal) m ρ c (r main_v12) = Cert.Gcn.selfCol (edges m c)
    ∧ W4 (F := Ideal) m ρ c (r main_v27) = Cert.Gcn.norm (edges m c)
    ∧ W4 (F := Ideal) m ρ c (r main_arg2) = (m ((c : Thread nD τ).loc main_arg2))
    ∧ W4 (F := Ideal) m ρ c (r main_arg5) = (m ((c : Thread nD τ).loc main_arg5))
    ∧ W4 (F := Ideal) m ρ c (r main_arg6) = (m ((c : Thread nD τ).loc main_arg6))
    ∧ W4 (F := Ideal) m ρ c (r main_arg7) = (m ((c : Thread nD τ).loc main_arg7))
    ∧ W4 (F := Ideal) m ρ c (r main_arg8) = (m ((c : Thread nD τ).loc main_arg8))
    ∧ W4 (F := Ideal) m ρ c (r main_arg9) = (m ((c : Thread nD τ).loc main_arg9))
    ∧ W4 (F := Ideal) m ρ c (r main_arg10) = (m ((c : Thread nD τ).loc main_arg10))
    ∧ W4 (F := Ideal) m ρ c (r main_v42) = (x1 m c) := by
  obtain ⟨h_v1, h_v3, h_v12, h_v27, h_arg2, h_arg4, h_arg5, h_arg6, h_arg7, h_arg8, h_arg9, h_arg10, h_v28, h_v41⟩ := at3 m ρ c
  exact ⟨(W4_of_ne (F := Ideal) m ρ c main_v1 (by decide)).trans h_v1,
    (W4_of_ne (F := Ideal) m ρ c main_v3 (by decide)).trans h_v3,
    ((W4_arr (F := Ideal) m ρ c 2).trans (((dat1 (F := Ideal) (V3 m ρ) c).arrAt_in 2 rfl _).trans (A_eq1 (V3 m ρ) c 2))).trans h_v12,
    (W4_of_ne (F := Ideal) m ρ c main_v27 (by decide)).trans h_v27,
    (W4_of_ne (F := Ideal) m ρ c main_arg2 (by decide)).trans h_arg2,
    (W4_of_ne (F := Ideal) m ρ c main_arg5 (by decide)).trans h_arg5,
    (W4_of_ne (F := Ideal) m ρ c main_arg6 (by decide)).trans h_arg6,
    (W4_of_ne (F := Ideal) m ρ c main_arg7 (by decide)).trans h_arg7,
    (W4_of_ne (F := Ideal) m ρ c main_arg8 (by decide)).trans h_arg8,
    (W4_of_ne (F := Ideal) m ρ c main_arg9 (by decide)).trans h_arg9,
    (W4_of_ne (F := Ideal) m ρ c main_arg10 (by decide)).trans h_arg10,
    (W4_arr (F := Ideal) m ρ c 4).trans ((Cert.KernelIdeal.Mix1.final (V3 m ρ) c).trans (by
      rw [show V3 (F := Ideal) m ρ c main_v12 = _ from h_v12, show V3 (F := Ideal) m ρ c main_v41 = _ from h_v41,
        show V3 (F := Ideal) m ρ c main_v28 = _ from h_v28, show V3 (F := Ideal) m ρ c main_arg4 = _ from h_arg4]
      rfl))⟩

/-! ## Boundary 5: after region 2 (the second layer's dense product) -/

theorem at5 :
    W5 (F := Ideal) m ρ c (r main_v1) = Cert.Gcn.src (edges m c)
    ∧ W5 (F := Ideal) m ρ c (r main_v3) = Cert.Gcn.dst (edges m c)
    ∧ W5 (F := Ideal) m ρ c (r main_v12) = Cert.Gcn.selfCol (edges m c)
    ∧ W5 (F := Ideal) m ρ c (r main_v27) = Cert.Gcn.norm (edges m c)
    ∧ W5 (F := Ideal) m ρ c (r main_arg2) = (m ((c : Thread nD τ).loc main_arg2))
    ∧ W5 (F := Ideal) m ρ c (r main_arg6) = (m ((c : Thread nD τ).loc main_arg6))
    ∧ W5 (F := Ideal) m ρ c (r main_arg7) = (m ((c : Thread nD τ).loc main_arg7))
    ∧ W5 (F := Ideal) m ρ c (r main_arg8) = (m ((c : Thread nD τ).loc main_arg8))
    ∧ W5 (F := Ideal) m ρ c (r main_arg9) = (m ((c : Thread nD τ).loc main_arg9))
    ∧ W5 (F := Ideal) m ρ c (r main_arg10) = (m ((c : Thread nD τ).loc main_arg10))
    ∧ W5 (F := Ideal) m ρ c (r main_v43) = Cert.Gcn.lin (F := Ideal) (x1 m c) (m ((c : Thread nD τ).loc main_arg5)) := by
  obtain ⟨h_v1, h_v3, h_v12, h_v27, h_arg2, h_arg5, h_arg6, h_arg7, h_arg8, h_arg9, h_arg10, h_v42⟩ := at4 m ρ c
  exact ⟨(W5_of_ne (F := Ideal) m ρ c main_v1 (by decide)).trans h_v1,
    (W5_of_ne (F := Ideal) m ρ c main_v3 (by decide)).trans h_v3,
    (W5_of_ne (F := Ideal) m ρ c main_v12 (by decide)).trans h_v12,
    (W5_of_ne (F := Ideal) m ρ c main_v27 (by decide)).trans h_v27,
    (W5_of_ne (F := Ideal) m ρ c main_arg2 (by decide)).trans h_arg2,
    (W5_of_ne (F := Ideal) m ρ c main_arg6 (by decide)).trans h_arg6,
    (W5_of_ne (F := Ideal) m ρ c main_arg7 (by decide)).trans h_arg7,
    (W5_of_ne (F := Ideal) m ρ c main_arg8 (by decide)).trans h_arg8,
    (W5_of_ne (F := Ideal) m ρ c main_arg9 (by decide)).trans h_arg9,
    (W5_of_ne (F := Ideal) m ρ c main_arg10 (by decide)).trans h_arg10,
    (W5_arr (F := Ideal) m ρ c 2).trans ((Cert.KernelIdeal.Dense2.final (V4 m ρ) c).trans (by
      rw [show V4 (F := Ideal) m ρ c main_v42 = _ from h_v42, show V4 (F := Ideal) m ρ c main_arg5 = _ from h_arg5]))⟩

/-! ## Boundary 6: after the third host stretch (the second layer's neighbour sum) -/

theorem at6 :
    W6 (F := Ideal) m ρ c (r main_v1) = Cert.Gcn.src (edges m c)
    ∧ W6 (F := Ideal) m ρ c (r main_v3) = Cert.Gcn.dst (edges m c)
    ∧ W6 (F := Ideal) m ρ c (r main_v12) = Cert.Gcn.selfCol (edges m c)
    ∧ W6 (F := Ideal) m ρ c (r main_v27) = Cert.Gcn.norm (edges m c)
    ∧ W6 (F := Ideal) m ρ c (r main_arg2) = (m ((c : Thread nD τ).loc main_arg2))
    ∧ W6 (F := Ideal) m ρ c (r main_arg6) = (m ((c : Thread nD τ).loc main_arg6))
    ∧ W6 (F := Ideal) m ρ c (r main_arg7) = (m ((c : Thread nD τ).loc main_arg7))
    ∧ W6 (F := Ideal) m ρ c (r main_arg8) = (m ((c : Thread nD τ).loc main_arg8))
    ∧ W6 (F := Ideal) m ρ c (r main_arg9) = (m ((c : Thread nD τ).loc main_arg9))
    ∧ W6 (F := Ideal) m ρ c (r main_arg10) = (m ((c : Thread nD τ).loc main_arg10))
    ∧ W6 (F := Ideal) m ρ c (r main_v43) = Cert.Gcn.lin (F := Ideal) (x1 m c) (m ((c : Thread nD τ).loc main_arg5))
    ∧ W6 (F := Ideal) m ρ c (r main_v56) = Cert.Gcn.agg (F := Ideal) (Cert.Gcn.norm (edges m c)) (Cert.Gcn.src (edges m c)) (Cert.Gcn.dst (edges m c)) (Cert.Gcn.lin (F := Ideal) (x1 m c) (m ((c : Thread nD τ).loc main_arg5))) := by
  obtain ⟨h_v1, h_v3, h_v12, h_v27, h_arg2, h_arg6, h_arg7, h_arg8, h_arg9, h_arg10, h_v43⟩ := at5 m ρ c
  exact ⟨(show StableHlo.after hostOps3 (W5 (F := Ideal) m ρ c) (r main_v1) = W5 (F := Ideal) m ρ c (r main_v1) by after_results_simp).trans h_v1,
    (show StableHlo.after hostOps3 (W5 (F := Ideal) m ρ c) (r main_v3) = W5 (F := Ideal) m ρ c (r main_v3) by after_results_simp).trans h_v3,
    (show StableHlo.after hostOps3 (W5 (F := Ideal) m ρ c) (r main_v12) = W5 (F := Ideal) m ρ c (r main_v12) by after_results_simp).trans h_v12,
    (show StableHlo.after hostOps3 (W5 (F := Ideal) m ρ c) (r main_v27) = W5 (F := Ideal) m ρ c (r main_v27) by after_results_simp).trans h_v27,
    (show StableHlo.after hostOps3 (W5 (F := Ideal) m ρ c) (r main_arg2) = W5 (F := Ideal) m ρ c (r main_arg2) by after_results_simp).trans h_arg2,
    (show StableHlo.after hostOps3 (W5 (F := Ideal) m ρ c) (r main_arg6) = W5 (F := Ideal) m ρ c (r main_arg6) by after_results_simp).trans h_arg6,
    (show StableHlo.after hostOps3 (W5 (F := Ideal) m ρ c) (r main_arg7) = W5 (F := Ideal) m ρ c (r main_arg7) by after_results_simp).trans h_arg7,
    (show StableHlo.after hostOps3 (W5 (F := Ideal) m ρ c) (r main_arg8) = W5 (F := Ideal) m ρ c (r main_arg8) by after_results_simp).trans h_arg8,
    (show StableHlo.after hostOps3 (W5 (F := Ideal) m ρ c) (r main_arg9) = W5 (F := Ideal) m ρ c (r main_arg9) by after_results_simp).trans h_arg9,
    (show StableHlo.after hostOps3 (W5 (F := Ideal) m ρ c) (r main_arg10) = W5 (F := Ideal) m ρ c (r main_arg10) by after_results_simp).trans h_arg10,
    (show StableHlo.after hostOps3 (W5 (F := Ideal) m ρ c) (r main_v43) = W5 (F := Ideal) m ρ c (r main_v43) by after_results_simp).trans h_v43,
    ((show StableHlo.after hostOps3 (W5 (F := Ideal) m ρ c) (r main_v56) = Cert.Gcn.agg (F := Ideal) (W5 (F := Ideal) m ρ c (r main_v27)) (W5 (F := Ideal) m ρ c (r main_v1)) (W5 (F := Ideal) m ρ c (r main_v3)) (W5 (F := Ideal) m ρ c (r main_v43)) by
        after_results_simp; rfl).trans (by rw [h_v27, h_v1, h_v3, h_v43]))⟩

/-! ## Boundary 7: after region 3 (the second layer combined and rectified) -/

theorem at7 :
    W7 (F := Ideal) m ρ c (r main_v1) = Cert.Gcn.src (edges m c)
    ∧ W7 (F := Ideal) m ρ c (r main_v3) = Cert.Gcn.dst (edges m c)
    ∧ W7 (F := Ideal) m ρ c (r main_v12) = Cert.Gcn.selfCol (edges m c)
    ∧ W7 (F := Ideal) m ρ c (r main_v27) = Cert.Gcn.norm (edges m c)
    ∧ W7 (F := Ideal) m ρ c (r main_arg2) = (m ((c : Thread nD τ).loc main_arg2))
    ∧ W7 (F := Ideal) m ρ c (r main_arg7) = (m ((c : Thread nD τ).loc main_arg7))
    ∧ W7 (F := Ideal) m ρ c (r main_arg8) = (m ((c : Thread nD τ).loc main_arg8))
    ∧ W7 (F := Ideal) m ρ c (r main_arg9) = (m ((c : Thread nD τ).loc main_arg9))
    ∧ W7 (F := Ideal) m ρ c (r main_arg10) = (m ((c : Thread nD τ).loc main_arg10))
    ∧ W7 (F := Ideal) m ρ c (r main_v57) = (x2 m c) := by
  obtain ⟨h_v1, h_v3, h_v12, h_v27, h_arg2, h_arg6, h_arg7, h_arg8, h_arg9, h_arg10, h_v43, h_v56⟩ := at6 m ρ c
  exact ⟨(W7_of_ne (F := Ideal) m ρ c main_v1 (by decide)).trans h_v1,
    (W7_of_ne (F := Ideal) m ρ c main_v3 (by decide)).trans h_v3,
    ((W7_arr (F := Ideal) m ρ c 2).trans (((dat3 (F := Ideal) (V6 m ρ) c).arrAt_in 2 rfl _).trans (A_eq3 (V6 m ρ) c 2))).trans h_v12,
    (W7_of_ne (F := Ideal) m ρ c main_v27 (by decide)).trans h_v27,
    (W7_of_ne (F := Ideal) m ρ c main_arg2 (by decide)).trans h_arg2,
    (W7_of_ne (F := Ideal) m ρ c main_arg7 (by decide)).trans h_arg7,
    (W7_of_ne (F := Ideal) m ρ c main_arg8 (by decide)).trans h_arg8,
    (W7_of_ne (F := Ideal) m ρ c main_arg9 (by decide)).trans h_arg9,
    (W7_of_ne (F := Ideal) m ρ c main_arg10 (by decide)).trans h_arg10,
    (W7_arr (F := Ideal) m ρ c 4).trans ((Cert.KernelIdeal.Mix3.final (V6 m ρ) c).trans (by
      rw [show V6 (F := Ideal) m ρ c main_v12 = _ from h_v12, show V6 (F := Ideal) m ρ c main_v56 = _ from h_v56,
        show V6 (F := Ideal) m ρ c main_v43 = _ from h_v43, show V6 (F := Ideal) m ρ c main_arg6 = _ from h_arg6]
      rfl))⟩

/-! ## Boundary 8: after region 4 (the third layer's dense product) -/

theorem at8 :
    W8 (F := Ideal) m ρ c (r main_v1) = Cert.Gcn.src (edges m c)
    ∧ W8 (F := Ideal) m ρ c (r main_v3) = Cert.Gcn.dst (edges m c)
    ∧ W8 (F := Ideal) m ρ c (r main_v12) = Cert.Gcn.selfCol (edges m c)
    ∧ W8 (F := Ideal) m ρ c (r main_v27) = Cert.Gcn.norm (edges m c)
    ∧ W8 (F := Ideal) m ρ c (r main_arg2) = (m ((c : Thread nD τ).loc main_arg2))
    ∧ W8 (F := Ideal) m ρ c (r main_arg8) = (m ((c : Thread nD τ).loc main_arg8))
    ∧ W8 (F := Ideal) m ρ c (r main_arg9) = (m ((c : Thread nD τ).loc main_arg9))
    ∧ W8 (F := Ideal) m ρ c (r main_arg10) = (m ((c : Thread nD τ).loc main_arg10))
    ∧ W8 (F := Ideal) m ρ c (r main_v58) = Cert.Gcn.lin (F := Ideal) (x2 m c) (m ((c : Thread nD τ).loc main_arg7)) := by
  obtain ⟨h_v1, h_v3, h_v12, h_v27, h_arg2, h_arg7, h_arg8, h_arg9, h_arg10, h_v57⟩ := at7 m ρ c
  exact ⟨(W8_of_ne (F := Ideal) m ρ c main_v1 (by decide)).trans h_v1,
    (W8_of_ne (F := Ideal) m ρ c main_v3 (by decide)).trans h_v3,
    (W8_of_ne (F := Ideal) m ρ c main_v12 (by decide)).trans h_v12,
    (W8_of_ne (F := Ideal) m ρ c main_v27 (by decide)).trans h_v27,
    (W8_of_ne (F := Ideal) m ρ c main_arg2 (by decide)).trans h_arg2,
    (W8_of_ne (F := Ideal) m ρ c main_arg8 (by decide)).trans h_arg8,
    (W8_of_ne (F := Ideal) m ρ c main_arg9 (by decide)).trans h_arg9,
    (W8_of_ne (F := Ideal) m ρ c main_arg10 (by decide)).trans h_arg10,
    (W8_arr (F := Ideal) m ρ c 2).trans ((Cert.KernelIdeal.Dense4.final (V7 m ρ) c).trans (by
      rw [show V7 (F := Ideal) m ρ c main_v57 = _ from h_v57, show V7 (F := Ideal) m ρ c main_arg7 = _ from h_arg7]))⟩

/-! ## Boundary 9: after the fourth host stretch (the third layer's neighbour sum) -/

theorem at9 :
    W9 (F := Ideal) m ρ c (r main_v12) = Cert.Gcn.selfCol (edges m c)
    ∧ W9 (F := Ideal) m ρ c (r main_arg2) = (m ((c : Thread nD τ).loc main_arg2))
    ∧ W9 (F := Ideal) m ρ c (r main_arg8) = (m ((c : Thread nD τ).loc main_arg8))
    ∧ W9 (F := Ideal) m ρ c (r main_arg9) = (m ((c : Thread nD τ).loc main_arg9))
    ∧ W9 (F := Ideal) m ρ c (r main_arg10) = (m ((c : Thread nD τ).loc main_arg10))
    ∧ W9 (F := Ideal) m ρ c (r main_v58) = Cert.Gcn.lin (F := Ideal) (x2 m c) (m ((c : Thread nD τ).loc main_arg7))
    ∧ W9 (F := Ideal) m ρ c (r main_v71) = Cert.Gcn.agg (F := Ideal) (Cert.Gcn.norm (edges m c)) (Cert.Gcn.src (edges m c)) (Cert.Gcn.dst (edges m c)) (Cert.Gcn.lin (F := Ideal) (x2 m c) (m ((c : Thread nD τ).loc main_arg7))) := by
  obtain ⟨h_v1, h_v3, h_v12, h_v27, h_arg2, h_arg8, h_arg9, h_arg10, h_v58⟩ := at8 m ρ c
  exact ⟨(show StableHlo.after hostOps5 (W8 (F := Ideal) m ρ c) (r main_v12) = W8 (F := Ideal) m ρ c (r main_v12) by after_results_simp).trans h_v12,
    (show StableHlo.after hostOps5 (W8 (F := Ideal) m ρ c) (r main_arg2) = W8 (F := Ideal) m ρ c (r main_arg2) by after_results_simp).trans h_arg2,
    (show StableHlo.after hostOps5 (W8 (F := Ideal) m ρ c) (r main_arg8) = W8 (F := Ideal) m ρ c (r main_arg8) by after_results_simp).trans h_arg8,
    (show StableHlo.after hostOps5 (W8 (F := Ideal) m ρ c) (r main_arg9) = W8 (F := Ideal) m ρ c (r main_arg9) by after_results_simp).trans h_arg9,
    (show StableHlo.after hostOps5 (W8 (F := Ideal) m ρ c) (r main_arg10) = W8 (F := Ideal) m ρ c (r main_arg10) by after_results_simp).trans h_arg10,
    (show StableHlo.after hostOps5 (W8 (F := Ideal) m ρ c) (r main_v58) = W8 (F := Ideal) m ρ c (r main_v58) by after_results_simp).trans h_v58,
    ((show StableHlo.after hostOps5 (W8 (F := Ideal) m ρ c) (r main_v71) = Cert.Gcn.agg (F := Ideal) (W8 (F := Ideal) m ρ c (r main_v27)) (W8 (F := Ideal) m ρ c (r main_v1)) (W8 (F := Ideal) m ρ c (r main_v3)) (W8 (F := Ideal) m ρ c (r main_v58)) by
        after_results_simp; rfl).trans (by rw [h_v27, h_v1, h_v3, h_v58]))⟩

/-! ## Boundary 10: after region 5 (the third layer combined: the node features that are pooled) -/

theorem at10 :
    W10 (F := Ideal) m ρ c (r main_arg2) = (m ((c : Thread nD τ).loc main_arg2))
    ∧ W10 (F := Ideal) m ρ c (r main_arg9) = (m ((c : Thread nD τ).loc main_arg9))
    ∧ W10 (F := Ideal) m ρ c (r main_arg10) = (m ((c : Thread nD τ).loc main_arg10))
    ∧ W10 (F := Ideal) m ρ c (r main_v72) = (Cert.Gcn.conv (F := Ideal) (edges m c) (x2 m c) (m ((c : Thread nD τ).loc main_arg7)) (m ((c : Thread nD τ).loc main_arg8))) := by
  obtain ⟨h_v12, h_arg2, h_arg8, h_arg9, h_arg10, h_v58, h_v71⟩ := at9 m ρ c
  exact ⟨(W10_of_ne (F := Ideal) m ρ c main_arg2 (by decide)).trans h_arg2,
    (W10_of_ne (F := Ideal) m ρ c main_arg9 (by decide)).trans h_arg9,
    (W10_of_ne (F := Ideal) m ρ c main_arg10 (by decide)).trans h_arg10,
    (W10_arr (F := Ideal) m ρ c 4).trans ((Cert.KernelIdeal.Mix5.final (V9 m ρ) c).trans (by
      rw [show V9 (F := Ideal) m ρ c main_v12 = _ from h_v12, show V9 (F := Ideal) m ρ c main_v71 = _ from h_v71,
        show V9 (F := Ideal) m ρ c main_v58 = _ from h_v58, show V9 (F := Ideal) m ρ c main_arg8 = _ from h_arg8]
      rfl))⟩

/-! ## Boundary 11: after the fifth host stretch (the graph numbers as one column) -/

theorem at11 :
    W11 (F := Ideal) m ρ c (r main_arg9) = (m ((c : Thread nD τ).loc main_arg9))
    ∧ W11 (F := Ideal) m ρ c (r main_arg10) = (m ((c : Thread nD τ).loc main_arg10))
    ∧ W11 (F := Ideal) m ρ c (r main_v72) = (Cert.Gcn.conv (F := Ideal) (edges m c) (x2 m c) (m ((c : Thread nD τ).loc main_arg7)) (m ((c : Thread nD τ).loc main_arg8)))
    ∧ W11 (F := Ideal) m ρ c (r main_v73) = (Cert.Gcn.nodeCol (F := Ideal) (m ((c : Thread nD τ).loc main_arg2))) := by
  obtain ⟨h_arg2, h_arg9, h_arg10, h_v72⟩ := at10 m ρ c
  exact ⟨(show StableHlo.after hostOps6 (W10 (F := Ideal) m ρ c) (r main_arg9) = W10 (F := Ideal) m ρ c (r main_arg9) by after_results_simp).trans h_arg9,
    (show StableHlo.after hostOps6 (W10 (F := Ideal) m ρ c) (r main_arg10) = W10 (F := Ideal) m ρ c (r main_arg10) by after_results_simp).trans h_arg10,
    (show StableHlo.after hostOps6 (W10 (F := Ideal) m ρ c) (r main_v72) = W10 (F := Ideal) m ρ c (r main_v72) by after_results_simp).trans h_v72,
    ((show StableHlo.after hostOps6 (W10 (F := Ideal) m ρ c) (r main_v73)
          = shapeCast S100000x1 (W10 (F := Ideal) m ρ c (r main_arg2)) shapeCasts_S100000_S100000x1 by
        after_results_simp; rfl).trans ((reshape_col _).trans (by rw [h_arg2])))⟩

/-! ## Boundary 12: after region 6 (the per-graph sums and counts) -/

/-- The pooling region's first output is the accumulating scatter of its input rows by graph number: both are, entry
    by entry, the sum over the nodes of each graph. -/
theorem pool_sums (V : (c : Dev nD) → (b : Ref sig .tc) → Buf (Elt Ideal) ((c : Thread nD τ).loc b)) (c : Dev nD) :
    (dat6 (F := Ideal) V c).arrAt 2 cfg6.N = Cert.Gcn.poolSumCol (F := Ideal) (V c main_v73) (V c main_v72) := by
  funext j
  obtain ⟨g, d, rfl⟩ : ∃ (g d : Fin 128), j = ix2 g d := ⟨j 0, j 1, eq_ix2 j⟩
  exact (Cert.KernelIdeal.Pool6.sums V c g d).trans (Cert.Gcn.poolSumCol_apply _ _ g d).symm

/-- Its second output, read as a plain array of 128 entries, is the accumulating scatter of ones by graph number. -/
theorem pool_counts (V : (c : Dev nD) → (b : Ref sig .tc) → Buf (Elt Ideal) ((c : Thread nD τ).loc b)) (c : Dev nD) :
    shapeCast S128 ((dat6 (F := Ideal) V c).arrAt 3 cfg6.N) shapeCasts_S1x128_S128 = Cert.Gcn.poolCountCol (F := Ideal) (V c main_v73) := by
  funext j
  obtain ⟨g, rfl⟩ : ∃ g : Fin 128, j = ix1 g := ⟨j 0, eq_ix1 j⟩
  exact (row_apply _ g).trans ((Cert.KernelIdeal.Pool6.counts V c g).trans (Cert.Gcn.poolCountCol_apply _ g).symm)

theorem at12 :
    W12 (F := Ideal) m ρ c (r main_arg9) = (m ((c : Thread nD τ).loc main_arg9))
    ∧ W12 (F := Ideal) m ρ c (r main_arg10) = (m ((c : Thread nD τ).loc main_arg10))
    ∧ W12 (F := Ideal) m ρ c (r main_v74_0) = Cert.Gcn.poolSumCol (F := Ideal) (Cert.Gcn.nodeCol (F := Ideal) (m ((c : Thread nD τ).loc main_arg2))) (Cert.Gcn.conv (F := Ideal) (edges m c) (x2 m c) (m ((c : Thread nD τ).loc main_arg7)) (m ((c : Thread nD τ).loc main_arg8)))
    ∧ shapeCast S128 (W12 (F := Ideal) m ρ c (r main_v74_1)) shapeCasts_S1x128_S128 = Cert.Gcn.poolCountCol (F := Ideal) (Cert.Gcn.nodeCol (F := Ideal) (m ((c : Thread nD τ).loc main_arg2))) := by
  obtain ⟨h_arg9, h_arg10, h_v72, h_v73⟩ := at11 m ρ c
  refine ⟨(W12_of_ne (F := Ideal) m ρ c main_arg9 (by decide)).trans h_arg9, (W12_of_ne (F := Ideal) m ρ c main_arg10 (by decide)).trans h_arg10, ?_, ?_⟩
  · exact (W12_arr (F := Ideal) m ρ c 2).trans ((pool_sums (V11 m ρ) c).trans (by
      rw [show V11 (F := Ideal) m ρ c main_v73 = _ from h_v73, show V11 (F := Ideal) m ρ c main_v72 = _ from h_v72]))
  · rw [show W12 (F := Ideal) m ρ c (r main_v74_1) = _ from W12_arr (F := Ideal) m ρ c 3]
    exact (pool_counts (V11 m ρ) c).trans (by rw [show V11 (F := Ideal) m ρ c main_v73 = _ from h_v73])

/-! ## Boundary 13: after the last host stretch (the mean, the linear map, the softmax) -/

theorem kernel_model :
    W13 (F := Ideal) m ρ c (r main_v95)
      = Cert.Gcn.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h_arg9, h_arg10, h_sums, h_counts⟩ := at12 m ρ c
  refine (show StableHlo.after hostOps7 (W12 (F := Ideal) m ρ c) (r main_v95)
      = Cert.Gcn.softmax (F := Ideal) (Cert.Gcn.logits (W12 (F := Ideal) m ρ c (r main_v74_0))
          (shapeCast S128 (W12 (F := Ideal) m ρ c (r main_v74_1)) shapeCasts_S1x128_S128)
          (W12 (F := Ideal) m ρ c (r main_arg9)) (W12 (F := Ideal) m ρ c (r main_arg10))) by
    after_results_simp; rfl).trans ?_
  rw [h_sums, h_counts, h_arg9, h_arg10]
  rfl

end Cert.KernelIdeal.Chain

end
-- ==== Proof.lean ====
/-
  Equivalence of a Pallas graph-convolution classifier and its plain reference, over the extended reals.

  Both programs compute: three graph-convolution layers  conv x W b = A (x W) + dinv² ⊙ (x W) + b  (a rectifier after the
  first two), the per-graph mean of the node rows, a linear map and a row-wise softmax (`Cert.Gcn.model`). The reference
  does all of it with array operations; the kernel program does the dense products, the pointwise combination and the
  pooling in seven tiled regions, and everything else with the same array operations as the reference.

  What differs, and why it is equal over the extended reals:
  * x W tiled over row blocks with a change of float format before the product: a change of format is the identity,
    and a row of the product depends on that row of x only;
  * the pointwise combination, block by block: the same expression at every entry;
  * pooling as a product with the 0/1 matrix [graph number of n = g], accumulated over the row blocks, against an
    accumulating scatter: both are the sum of the rows x n over the nodes n whose graph number is g, because 0 · y = 0
    and 1 · y = y for every extended real y and a sum may be taken in any order. A node whose graph number is outside
    0 … 127 contributes to no graph on either side.
  No step needs the inputs to be finite.
-/
import proofs.«412704_j34110630265034_1_alg».proof.Defs
import proofs.«412704_j34110630265034_1_alg».proof.Proof.Gen.Kernel
import proofs.«412704_j34110630265034_1_alg».proof.Proof.Gen.Kernel.Frame
import proofs.«412704_j34110630265034_1_alg».proof.Proof.Gen.KernelIdeal
import proofs.«412704_j34110630265034_1_alg».proof.Proof.Gen.KernelIdeal.Frame
import proofs.«412704_j34110630265034_1_alg».proof.Proof.Gen.ReferenceIdeal
import proofs.«412704_j34110630265034_1_alg».proof.Proof.Gen.ReferenceIdeal.Run
import proofs.«412704_j34110630265034_1_alg».proof.Proof.Gen.ReferenceIdeal.Read
import proofs.«412704_j34110630265034_1_alg».proof.Proof.Gen.Pre_finite_inputs
import proofs.«412704_j34110630265034_1_alg».proof.Proof.KernelRun
import proofs.«412704_j34110630265034_1_alg».proof.Proof.RefModel
import proofs.«412704_j34110630265034_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network `Cert.Gcn.model` of their arguments in the result buffer, and the arguments agree. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v95),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v164_eq, Cert.ReferenceIdeal.Model.result_eq,
    h0, h1, h2, h3, h4, h5, h6, h7, h8, h9, h10]
  exact (Cert.KernelIdeal.Chain.kernel_model m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
